-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S150000x2 : Shape := ⟨2, ![150000, 2]⟩
abbrev S2x2400000 : Shape := ⟨2, ![2, 2400000]⟩
abbrev S2x32 : Shape := ⟨2, ![2, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S_ : Shape := ⟨0, ![]⟩

class Facts : Prop where
  bcast_S_S150000x2 : S_.BroadcastsInDim S150000x2 (![] : Fin 0 → Fin S150000x2.rank)
  reducesTo_S150000x2_S_d0_1 : S150000x2.ReducesTo [0, 1] S_
  h_S_ : 0 < S_.numel
  bcast_S_S2x32 : S_.BroadcastsInDim S2x32 (![] : Fin 0 → Fin S2x32.rank)
  reducesTo_S2x32_S_d0_1 : S2x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S32 .f32) (main_arg6 : FVec F S32x1 .f32) (main_arg7 : FVec F S1 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x1 .f32 := Host.absf main_arg6
  let main_cst_8 : FVec F S_ .f32 := constant S_ .f32 0x7F800000#32
  let main_v25 : FVec F S32x1 .f32 := broadcastInDim S32x1 ![] bcast_S_S32x1 main_cst_8
  let main_v26 : IVec S32x1 1 := cmpf .olt main_v24 main_v25
  let main_c_9 : IVec S_ 1 := constantI S_ 1 1#1
  let main_v27 : IVec S_ 1 := (fun x v => Host.reduce IntOp.andi x v reducesTo_S32x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S150000x2 .f32) (main_arg1 : IVec S2x2400000 32) (main_arg2 : FVec F S2x32 .f32) (main_arg3 : FVec F S32 .f32) (main_arg4 : FVec F S32x32 .f32) (main_arg5 : FVec F S32 .f32) (main_arg6 : FVec F S32x1 .f32) (main_arg7 : FVec F S1 .f32) : IVec S_ 1 :=
  let main_v0 : FVec F S150000x2 .f32 := Host.absf main_arg0
  let main_cst : FVec F S_ .f32 := constant S_ .f32 0x7F800000#32
  let main_v1 : FVec F S150000x2 .f32 := broadcastInDim S150000x2 ![] bcast_S_S150000x2 main_cst
  let main_v2 : IVec S150000x2 1 := cmpf .olt main_v0 main_v1
  let main_c : IVec S_ 1 := constantI S_ 1 1#1
  let main_v3 : IVec S_ 1 := (fun x v => Host.reduce IntOp.andi x v reducesTo_S150000x2_S_d0_1 h_S_) main_v2 main_c
  let main_v4 : FVec F S2x32 .f32 := Host.absf main_arg2
  let main_cst_0 : FVec F S_ .f32 := constant S_ .f32 0x7F800000#32
  let main_v5 : FVec F S2x32 .f32 := broadcastInDim S2x32 ![] bcast_S_S2x32 main_cst_0
  let main_v6 : IVec S2x32 1 := cmpf .olt main_v4 main_v5
  let main_c_1 : IVec S_ 1 := constantI S_ 1 1#1
  let main_v7 : IVec S_ 1 := (fun x v => Host.reduce IntOp.andi x v reducesTo_S2x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x32 .f32 := Host.absf main_arg4
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg5 main_arg6 main_arg7 main_v13 main_v16
-- ==== Kernel.lean ====
abbrev S150000x2 : Shape := ⟨2, ![150000, 2]⟩
abbrev S2x2400000 : Shape := ⟨2, ![2, 2400000]⟩
abbrev S2x32 : Shape := ⟨2, ![2, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S150000 : Shape := ⟨1, ![150000]⟩
abbrev S1x2400000 : Shape := ⟨2, ![1, 2400000]⟩
abbrev S2400000 : Shape := ⟨1, ![2400000]⟩
abbrev S2550000 : Shape := ⟨1, ![2550000]⟩
abbrev S_ : Shape := ⟨0, ![]⟩
abbrev S2550000x1 : Shape := ⟨2, ![2550000, 1]⟩
abbrev S150000x32 : Shape := ⟨2, ![150000, 32]⟩
abbrev S5000x2 : Shape := ⟨2, ![5000, 2]⟩
abbrev S5000x32 : Shape := ⟨2, ![5000, 32]⟩
abbrev S2550000x32 : Shape := ⟨2, ![2550000, 32]⟩
abbrev S1x32 : Shape := ⟨2, ![1, 32]⟩
abbrev S1x1 : Shape := ⟨2, ![1, 1]⟩
abbrev S150000x1 : Shape := ⟨2, ![150000, 1]⟩
abbrev S5000x1 : Shape := ⟨2, ![5000, 1]⟩

abbrev nBuf : Space → Nat
  | .hbm => 86
  | .vmem => 18
  | .smem => 0
  | _ => 0

abbrev bufTy : (tb : Table) → Fin (tcTables nBuf tb) → BufTy
  | .hbm, ⟨0, _⟩ => ⟨S150000x2, .f32⟩
  | .hbm, ⟨1, _⟩ => ⟨S2x2400000, .i32⟩
  | .hbm, ⟨2, _⟩ => ⟨S2x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S32x1, .f32⟩
  | .hbm, ⟨7, _⟩ => ⟨S1, .f32⟩
  | .hbm, ⟨8, _⟩ => ⟨S150000, .i32⟩
  | .hbm, ⟨9, _⟩ => ⟨S1x2400000, .i32⟩
  | .hbm, ⟨10, _⟩ => ⟨S2400000, .i32⟩
  | .hbm, ⟨11, _⟩ => ⟨S2550000, .i32⟩
  | .hbm, ⟨12, _⟩ => ⟨S1x2400000, .i32⟩
  | .hbm, ⟨13, _⟩ => ⟨S2400000, .i32⟩
  | .hbm, ⟨14, _⟩ => ⟨S2550000, .i32⟩
  | .hbm, ⟨15, _⟩ => ⟨S_, .f32⟩
  | .hbm, ⟨16, _⟩ => ⟨S2550000, .f32⟩
  | .hbm, ⟨17, _⟩ => ⟨S_, .f32⟩
  | .hbm, ⟨18, _⟩ => ⟨S150000, .f32⟩
  | .hbm, ⟨19, _⟩ => ⟨S2550000x1, .i32⟩
  | .hbm, ⟨20, _⟩ => ⟨S150000, .f32⟩
  | .hbm, ⟨21, _⟩ => ⟨S_, .f32⟩
  | .hbm, ⟨22, _⟩ => ⟨S150000, .f32⟩
  | .hbm, ⟨23, _⟩ => ⟨S150000, .i1⟩
  | .hbm, ⟨24, _⟩ => ⟨S150000, .f32⟩
  | .hbm, ⟨25, _⟩ => ⟨S_, .f32⟩
  | .hbm, ⟨26, _⟩ => ⟨S_, .f32⟩
  | .hbm, ⟨27, _⟩ => ⟨S150000, .f32⟩
  | .hbm, ⟨28, _⟩ => ⟨S150000, .f32⟩
  | .hbm, ⟨29, _⟩ => ⟨S_, .i32⟩
  | .hbm, ⟨30, _⟩ => ⟨S2550000, .i32⟩
  | .hbm, ⟨31, _⟩ => ⟨S2550000, .i1⟩
  | .hbm, ⟨32, _⟩ => ⟨S_, .i32⟩
  | .hbm, ⟨33, _⟩ => ⟨S2550000, .i32⟩
  | .hbm, ⟨34, _⟩ => ⟨S2550000, .i32⟩
  | .hbm, ⟨35, _⟩ => ⟨S2550000, .i32⟩
  | .hbm, ⟨36, _⟩ => ⟨S2550000x1, .i32⟩
  | .hbm, ⟨37, _⟩ => ⟨S2550000, .f32⟩
  | .hbm, ⟨38, _⟩ => ⟨S_, .i32⟩
  | .hbm, ⟨39, _⟩ => ⟨S2550000, .i32⟩
  | .hbm, ⟨40, _⟩ => ⟨S2550000, .i1⟩
  | .hbm, ⟨41, _⟩ => ⟨S_, .i32⟩
  | .hbm, ⟨42, _⟩ => ⟨S2550000, .i32⟩
  | .hbm, ⟨43, _⟩ => ⟨S2550000, .i32⟩
  | .hbm, ⟨44, _⟩ => ⟨S2550000, .i32⟩
  | .hbm, ⟨45, _⟩ => ⟨S2550000x1, .i32⟩
  | .hbm, ⟨46, _⟩ => ⟨S2550000, .f32⟩
  | .hbm, ⟨47, _⟩ => ⟨S2550000, .f32⟩
  | .hbm, ⟨48, _⟩ => ⟨S150000x32, .f32⟩
  | .hbm, ⟨49, _⟩ => ⟨S_, .i32⟩
  | .hbm, ⟨50, _⟩ => ⟨S2550000, .i32⟩
  | .hbm, ⟨51, _⟩ => ⟨S2550000, .i1⟩
  | .hbm, ⟨52, _⟩ => ⟨S_, .i32⟩
  | .hbm, ⟨53, _⟩ => ⟨S2550000, .i32⟩
  | .hbm, ⟨54, _⟩ => ⟨S2550000, .i32⟩
  | .hbm, ⟨55, _⟩ => ⟨S2550000, .i32⟩
  | .hbm, ⟨56, _⟩ => ⟨S2550000x1, .i32⟩
  | .hbm, ⟨57, _⟩ => ⟨S2550000x32, .f32⟩
  | .hbm, ⟨58, _⟩ => ⟨S2550000x1, .f32⟩
  | .hbm, ⟨59, _⟩ => ⟨S2550000x32, .f32⟩
  | .hbm, ⟨60, _⟩ => ⟨S2550000x32, .f32⟩
  | .hbm, ⟨61, _⟩ => ⟨S_, .f32⟩
  | .hbm, ⟨62, _⟩ => ⟨S150000x32, .f32⟩
  | .hbm, ⟨63, _⟩ => ⟨S2550000x1, .i32⟩
  | .hbm, ⟨64, _⟩ => ⟨S150000x32, .f32⟩
  | .hbm, ⟨65, _⟩ => ⟨S1x32, .f32⟩
  | .hbm, ⟨66, _⟩ => ⟨S150000x32, .f32⟩
  | .hbm, ⟨67, _⟩ => ⟨S_, .i32⟩
  | .hbm, ⟨68, _⟩ => ⟨S2550000, .i32⟩
  | .hbm, ⟨69, _⟩ => ⟨S2550000, .i1⟩
  | .hbm, ⟨70, _⟩ => ⟨S_, .i32⟩
  | .hbm, ⟨71, _⟩ => ⟨S2550000, .i32⟩
  | .hbm, ⟨72, _⟩ => ⟨S2550000, .i32⟩
  | .hbm, ⟨73, _⟩ => ⟨S2550000, .i32⟩
  | .hbm, ⟨74, _⟩ => ⟨S2550000x1, .i32⟩
  | .hbm, ⟨75, _⟩ => ⟨S2550000x32, .f32⟩
  | .hbm, ⟨76, _⟩ => ⟨S2550000x1, .f32⟩
  | .hbm, ⟨77, _⟩ => ⟨S2550000x32, .f32⟩
  | .hbm, ⟨78, _⟩ => ⟨S2550000x32, .f32⟩
  | .hbm, ⟨79, _⟩ => ⟨S_, .f32⟩
  | .hbm, ⟨80, _⟩ => ⟨S150000x32, .f32⟩
  | .hbm, ⟨81, _⟩ => ⟨S2550000x1, .i32⟩
  | .hbm, ⟨82, _⟩ => ⟨S150000x32, .f32⟩
  | .hbm, ⟨83, _⟩ => ⟨S1x32, .f32⟩
  | .hbm, ⟨84, _⟩ => ⟨S1x1, .f32⟩
  | .hbm, ⟨85, _⟩ => ⟨S150000x1, .f32⟩
  | .local _ .vmem, ⟨0, _⟩ => ⟨S5000x2, .f32⟩
  | .local _ .vmem, ⟨1, _⟩ => ⟨S5000x2, .f32⟩
  | .local _ .vmem, ⟨2, _⟩ => ⟨S2x32, .f32⟩
  | .local _ .vmem, ⟨3, _⟩ => ⟨S5000x32, .f32⟩
  | .local _ .vmem, ⟨4, _⟩ => ⟨S5000x32, .f32⟩
  | .local _ .vmem, ⟨5, _⟩ => ⟨S5000x32, .f32⟩
  | .local _ .vmem, ⟨6, _⟩ => ⟨S5000x32, .f32⟩
  | .local _ .vmem, ⟨7, _⟩ => ⟨S1x32, .f32⟩
  | .local _ .vmem, ⟨8, _⟩ => ⟨S32x32, .f32⟩
  | .local _ .vmem, ⟨9, _⟩ => ⟨S5000x32, .f32⟩
  | .local _ .vmem, ⟨10, _⟩ => ⟨S5000x32, .f32⟩
  | .local _ .vmem, ⟨11, _⟩ => ⟨S5000x32, .f32⟩
  | .local _ .vmem, ⟨12, _⟩ => ⟨S5000x32, .f32⟩
  | .local _ .vmem, ⟨13, _⟩ => ⟨S1x32, .f32⟩
  | .local _ .vmem, ⟨14, _⟩ => ⟨S32x1, .f32⟩
  | .local _ .vmem, ⟨15, _⟩ => ⟨S1x1, .f32⟩
  | .local _ .vmem, ⟨16, _⟩ => ⟨S5000x1, .f32⟩
  | .local _ .vmem, ⟨17, _⟩ => ⟨S5000x1, .f32⟩
  | _, _ => ⟨S150000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_9 : Ref sig .tc := ⟨.hbm, 67, rfl⟩
abbrev main_v46 : Ref sig .tc := ⟨.hbm, 68, rfl⟩
abbrev main_v47 : Ref sig .tc := ⟨.hbm, 69, rfl⟩
abbrev main_c_10 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem4_1 : DmaSem sig := 17

abbrev nD : Nat := 1
abbrev τ : Topo := Topo.v7x

variable {F : FTy → Type} [FloatOps F]

abbrev grid0 : Pipeline.Grid := ⟨1, ![30], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![30], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![30], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S32x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x2400000_S1x2400000_0_0 : S2x2400000.Slices ![0, 0] S1x2400000
  shapeCasts_S1x2400000_S2400000 : S1x2400000.ShapeCasts S2400000
  concatenates_S2400000_S150000_S2550000_d0 : Shape.Concatenates [S2400000, S150000] S2550000 0
  slices_S2x2400000_S1x2400000_1_0 : S2x2400000.Slices ![1, 0] S1x2400000
  bcast_S_S2550000 : S_.BroadcastsInDim S2550000 (![] : Fin 0 → Fin S2550000.rank)
  bcast_S_S150000 : S_.BroadcastsInDim S150000 (![] : Fin 0 → Fin S150000.rank)
  bcast_S2550000_S2550000x1_0 : S2550000.BroadcastsInDim S2550000x1 (![0] : Fin 1 → Fin S2550000x1.rank)
  inb_S5000x2_S5000x2_0_0 : ∀ a, (![0, 0] : Fin 2 → Nat) a + S5000x2.size a ≤ S5000x2.size a
  h_S5000x2 : 0 < S5000x2.numel
  bitsLt_bf16_f32 : FTy.bits .bf16 < FTy.bits .f32
  inb_S2x32_S2x32_0_0 : ∀ a, (![0, 0] : Fin 2 → Nat) a + S2x32.size a ≤ S2x32.size a
  h_S2x32 : 0 < S2x32.numel
  inb_S5000x32_S5000x32_0_0 : ∀ a, (![0, 0] : Fin 2 → Nat) a + S5000x32.size a ≤ S5000x32.size a
  h_S5000x32 : 0 < S5000x32.numel
  bcast_S2550000x1_S2550000x32_0_1 : S2550000x1.BroadcastsInDim S2550000x32 (![0, 1] : Fin 2 → Fin S2550000x32.rank)
  bcast_S_S150000x32 : S_.BroadcastsInDim S150000x32 (![] : Fin 0 → Fin S150000x32.rank)
  shapeCasts_S32_S1x32 : S32.ShapeCasts S1x32
  shapeCasts_S5000x32_S5000x32 : S5000x32.ShapeCasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S32x32_S32x32_0_0 : ∀ a, (![0, 0] : Fin 2 → Nat) a + S32x32.size a ≤ S32x32.size a
  h_S32x32 : 0 < S32x32.numel
  shapeCasts_S1_S1x1 : S1.ShapeCasts S1x1
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  scatter_S150000_S2550000x1_S2550000_n_0_0_1_wf : ScatterDims.WF S150000 S2550000x1 S2550000 [] [0] [0] 1
  gather_S150000_S2550000x1_S2550000_n_0_n_n_0_1_1_wf : GatherDims.WF S150000 S2550000x1 S2550000 [] [0] [] [0] [] 1 ![1]
  dot_S5000x2_S2x32_S5000x32_1_0_0_1_n_n_wf : DotDims.WF S5000x2 S2x32 S5000x32 [1] [0] [0] [1] [] []
  gather_S150000x32_S2550000x1_S2550000x32_1_0_n_n_0_1_132_wf : GatherDims.WF S150000x32 S2550000x1 S2550000x32 [1] [0] [] [0] [] 1 ![1, 32]
  scatter_S150000x32_S2550000x1_S2550000x32_1_0_0_1_wf : ScatterDims.WF S150000x32 S2550000x1 S2550000x32 [1] [0] [0] 1
  dot_S5000x32_S32x32_S5000x32_1_0_0_1_n_n_wf : DotDims.WF S5000x32 S32x32 S5000x32 [1] [0] [0] [1] [] []
  dot_S5000x32_S32x1_S5000x1_1_0_0_1_n_n_wf : DotDims.WF S5000x32 S32x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x2.size a ≤ S150000x2.size a
  hwx0_0 : ∀ i : grid0.Coords, EltTy.bits .f32 = 32 ∨ (Rect.block (s := S150000x2) S5000x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x32.size a ≤ S2x32.size a
  hwx0_1 : ∀ i : grid0.Coords, EltTy.bits .f32 = 32 ∨ (Rect.block (s := S2x32) S2x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x32.size a ≤ S150000x32.size a
  hwx0_2 : ∀ i : grid0.Coords, EltTy.bits .f32 = 32 ∨ (Rect.block (s := S150000x32) S5000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S150000x32.size a
  hwx1_0 : ∀ i : grid1.Coords, EltTy.bits .f32 = 32 ∨ (Rect.block (s := S150000x32) S5000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x32.size a ≤ S1x32.size a
  hwx1_1 : ∀ i : grid1.Coords, EltTy.bits .f32 = 32 ∨ (Rect.block (s := S1x32) S1x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x32.size a ≤ S32x32.size a
  hwx1_2 : ∀ i : grid1.Coords, EltTy.bits .f32 = 32 ∨ (Rect.block (s := S32x32) S32x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x32.size a ≤ S150000x32.size a
  hwx1_3 : ∀ i : grid1.Coords, EltTy.bits .f32 = 32 ∨ (Rect.block (s := S150000x32) S5000x32.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x32.size a ≤ S150000x32.size a
  hwx2_0 : ∀ i : grid2.Coords, EltTy.bits .f32 = 32 ∨ (Rect.block (s := S150000x32) S5000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x32.size a ≤ S1x32.size a
  hwx2_1 : ∀ i : grid2.Coords, EltTy.bits .f32 = 32 ∨ (Rect.block (s := S1x32) S1x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32x1.size a ≤ S32x1.size a
  hwx2_2 : ∀ i : grid2.Coords, EltTy.bits .f32 = 32 ∨ (Rect.block (s := S32x1) S32x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1.size a ≤ S1x1.size a
  hwx2_3 : ∀ i : grid2.Coords, EltTy.bits .f32 = 32 ∨ (Rect.block (s := S1x1) S1x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x1.size a ≤ S150000x1.size a
  hwx2_4 : ∀ i : grid2.Coords, EltTy.bits .f32 = 32 ∨ (Rect.block (s := S150000x1) S5000x1.size (cc2_transform_4 i) (hinb2_4 i)).WholeWords (EltTy.packing .f32)

variable [Facts₀]

def scatter_S150000_S2550000x1_S2550000_n_0_0_1 : ScatterDims S150000 S2550000x1 S2550000 where
  updateWindowDims := []
  insertedWindowDims := [0]
  scatterDimsToOperandDims := [0]
  indexVectorDim := 1
  wf := scatter_S150000_S2550000x1_S2550000_n_0_0_1_wf
def gather_S150000_S2550000x1_S2550000_n_0_n_n_0_1_1 : GatherDims S150000 S2550000x1 S2550000 where
  offsetDims := []
  collapsedSliceDims := [0]
  operandBatchingDims := []
  startIndicesBatchingDims := []
  startIndexMap := [0]
  indexVectorDim := 1
  sliceSizes := ![1]
  wf := gather_S150000_S2550000x1_S2550000_n_0_n_n_0_1_1_wf
def dot_S5000x2_S2x32_S5000x32_1_0_0_1_n_n : DotDims S5000x2 S2x32 S5000x32 where
  lhsContracting := [1]
  rhsContracting := [0]
  lhsNonContracting := [0]
  rhsNonContracting := [1]
  lhsBatch := []
  rhsBatch := []
  wf := dot_S5000x2_S2x32_S5000x32_1_0_0_1_n_n_wf
def gather_S150000x32_S2550000x1_S2550000x32_1_0_n_n_0_1_132 : GatherDims S150000x32 S2550000x1 S2550000x32 where
  offsetDims := [1]
  collapsedSliceDims := [0]
  operandBatchingDims := []
  startIndicesBatchingDims := []
  startIndexMap := [0]
  indexVectorDim := 1
  sliceSizes := ![1, 32]
  wf := gather_S150000x32_S2550000x1_S2550000x32_1_0_n_n_0_1_132_wf
def scatter_S150000x32_S2550000x1_S2550000x32_1_0_0_1 : ScatterDims S150000x32 S2550000x1 S2550000x32 where
  updateWindowDims := [1]
  insertedWindowDims := [0]
  scatterDimsToOperandDims := [0]
  indexVectorDim := 1
  wf := scatter_S150000x32_S2550000x1_S2550000x32_1_0_0_1_wf
def dot_S5000x32_S32x32_S5000x32_1_0_0_1_n_n : DotDims S5000x32 S32x32 S5000x32 where
  lhsContracting := [1]
  rhsContracting := [0]
  lhsNonContracting := [0]
  rhsNonContracting := [1]
  lhsBatch := []
  rhsBatch := []
  wf := dot_S5000x32_S32x32_S5000x32_1_0_0_1_n_n_wf
def dot_S5000x32_S32x1_S5000x1_1_0_0_1_n_n : DotDims S5000x32 S32x1 S5000x1 where
  lhsContracting := [1]
  rhsContracting := [0]
  lhsNonContracting := [0]
  rhsNonContracting := [1]
  lhsBatch := []
  rhsBatch := []
  wf := dot_S5000x32_S32x1_S5000x1_1_0_0_1_n_n_wf

abbrev win0_0 : Pipeline.Window sig grid0 :=
  Pipeline.Window.ofSpec (Memref.whole main_arg0) S5000x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S32x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S5000x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S5000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S32x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S1x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v61) S5000x1.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S150000x2 : Shape := ⟨2, ![150000, 2]⟩
abbrev S2x2400000 : Shape := ⟨2, ![2, 2400000]⟩
abbrev S2x32 : Shape := ⟨2, ![2, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S150000x32 : Shape := ⟨2, ![150000, 32]⟩
abbrev S150000 : Shape := ⟨1, ![150000]⟩
abbrev S1x2400000 : Shape := ⟨2, ![1, 2400000]⟩
abbrev S2400000 : Shape := ⟨1, ![2400000]⟩
abbrev S2550000 : Shape := ⟨1, ![2550000]⟩
abbrev S_ : Shape := ⟨0, ![]⟩
abbrev S2550000x1 : Shape := ⟨2, ![2550000, 1]⟩
abbrev S2550000x32 : Shape := ⟨2, ![2550000, 32]⟩
abbrev S1x32 : Shape := ⟨2, ![1, 32]⟩
abbrev S150000x1 : Shape := ⟨2, ![150000, 1]⟩
abbrev S1x1 : Shape := ⟨2, ![1, 1]⟩

abbrev nBuf : Space → Nat
  | .hbm => 146
  | .vmem => 0
  | .smem => 0
  | _ => 0

abbrev hbmTy0_0 (i : Nat) : BufTy := match i % 128 with
  | 0 => ⟨S150000x2, .f32⟩
  | 1 => ⟨S2x2400000, .i32⟩
  | 2 => ⟨S2x32, .f32⟩
  | 3 => ⟨S32, .f32⟩
  | 4 => ⟨S32x32, .f32⟩
  | 5 => ⟨S32, .f32⟩
  | 6 => ⟨S32x1, .f32⟩
  | 7 => ⟨S1, .f32⟩
  | 8 => ⟨S150000x32, .f32⟩
  | 9 => ⟨S150000, .i32⟩
  | 10 => ⟨S1x2400000, .i32⟩
  | 11 => ⟨S2400000, .i32⟩
  | 12 => ⟨S2550000, .i32⟩
  | 13 => ⟨S1x2400000, .i32⟩
  | 14 => ⟨S2400000, .i32⟩
  | 15 => ⟨S2550000, .i32⟩
  | 16 => ⟨S_, .f32⟩
  | 17 => ⟨S2550000, .f32⟩
  | 18 => ⟨S_, .f32⟩
  | 19 => ⟨S150000, .f32⟩
  | 20 => ⟨S2550000x1, .i32⟩
  | 21 => ⟨S150000, .f32⟩
  | 22 => ⟨S_, .f32⟩
  | 23 => ⟨S150000, .f32⟩
  | 24 => ⟨S150000, .i1⟩
  | 25 => ⟨S150000, .f32⟩
  | 26 => ⟨S_, .f32⟩
  | 27 => ⟨S_, .f32⟩
  | 28 => ⟨S150000, .f32⟩
  | 29 => ⟨S150000, .f32⟩
  | 30 => ⟨S_, .i32⟩
  | 31 => ⟨S2550000, .i32⟩
  | 32 => ⟨S2550000, .i1⟩
  | 33 => ⟨S_, .i32⟩
  | 34 => ⟨S2550000, .i32⟩
  | 35 => ⟨S2550000, .i32⟩
  | 36 => ⟨S2550000, .i32⟩
  | 37 => ⟨S2550000x1, .i32⟩
  | 38 => ⟨S2550000, .f32⟩
  | 39 => ⟨S_, .i32⟩
  | 40 => ⟨S2550000, .i32⟩
  | 41 => ⟨S2550000, .i1⟩
  | 42 => ⟨S_, .i32⟩
  | 43 => ⟨S2550000, .i32⟩
  | 44 => ⟨S2550000, .i32⟩
  | 45 => ⟨S2550000, .i32⟩
  | 46 => ⟨S2550000x1, .i32⟩
  | 47 => ⟨S2550000, .f32⟩
  | 48 => ⟨S2550000, .f32⟩
  | 49 => ⟨S_, .i32⟩
  | 50 => ⟨S2550000, .i32⟩
  | 51 => ⟨S2550000, .i1⟩
  | 52 => ⟨S_, .i32⟩
  | 53 => ⟨S2550000, .i32⟩
  | 54 => ⟨S2550000, .i32⟩
  | 55 => ⟨S2550000, .i32⟩
  | 56 => ⟨S2550000x1, .i32⟩
  | 57 => ⟨S2550000x32, .f32⟩
  | 58 => ⟨S2550000x1, .f32⟩
  | 59 => ⟨S2550000x32, .f32⟩
  | 60 => ⟨S2550000x32, .f32⟩
  | 61 => ⟨S_, .f32⟩
  | 62 => ⟨S150000x32, .f32⟩
  | 63 => ⟨S2550000x1, .i32⟩
  | 64 => ⟨S150000x32, .f32⟩
  | 65 => ⟨S1x32, .f32⟩
  | 66 => ⟨S150000x32, .f32⟩
  | 67 => ⟨S150000x32, .f32⟩
  | 68 => ⟨S_, .f32⟩
  | 69 => ⟨S150000x32, .f32⟩
  | 70 => ⟨S150000x32, .f32⟩
  | 71 => ⟨S150000x32, .f32⟩
  | 72 => ⟨S150000, .i32⟩
  | 73 => ⟨S1x2400000, .i32⟩
  | 74 => ⟨S2400000, .i32⟩
  | 75 => ⟨S2550000, .i32⟩
  | 76 => ⟨S1x2400000, .i32⟩
  | 77 => ⟨S2400000, .i32⟩
  | 78 => ⟨S2550000, .i32⟩
  | 79 => ⟨S_, .f32⟩
  | 80 => ⟨S2550000, .f32⟩
  | 81 => ⟨S_, .f32⟩
  | 82 => ⟨S150000, .f32⟩
  | 83 => ⟨S2550000x1, .i32⟩
  | 84 => ⟨S150000, .f32⟩
  | 85 => ⟨S_, .f32⟩
  | 86 => ⟨S150000, .f32⟩
  | 87 => ⟨S150000, .i1⟩
  | 88 => ⟨S150000, .f32⟩
  | 89 => ⟨S_, .f32⟩
  | 90 => ⟨S_, .f32⟩
  | 91 => ⟨S150000, .f32⟩
  | 92 => ⟨S150000, .f32⟩
  | 93 => ⟨S_, .i32⟩
  | 94 => ⟨S2550000, .i32⟩
  | 95 => ⟨S2550000, .i1⟩
  | 96 => ⟨S_, .i32⟩
  | 97 => ⟨S2550000, .i32⟩
  | 98 => ⟨S2550000, .i32⟩
  | 99 => ⟨S2550000, .i32⟩
  | 100 => ⟨S2550000x1, .i32⟩
  | 101 => ⟨S2550000, .f32⟩
  | 102 => ⟨S_, .i32⟩
  | 103 => ⟨S2550000, .i32⟩
  | 104 => ⟨S2550000, .i1⟩
  | 105 => ⟨S_, .i32⟩
  | 106 => ⟨S2550000, .i32⟩
  | 107 => ⟨S2550000, .i32⟩
  | 108 => ⟨S2550000, .i32⟩
  | 109 => ⟨S2550000x1, .i32⟩
  | 110 => ⟨S2550000, .f32⟩
  | 111 => ⟨S2550000, .f32⟩
  | 112 => ⟨S_, .i32⟩
  | 113 => ⟨S2550000, .i32⟩
  | 114 => ⟨S2550000, .i1⟩
  | 115 => ⟨S_, .i32⟩
  | 116 => ⟨S2550000, .i32⟩
  | 117 => ⟨S2550000, .i32⟩
  | 118 => ⟨S2550000, .i32⟩
  | 119 => ⟨S2550000x1, .i32⟩
  | 120 => ⟨S2550000x32, .f32⟩
  | 121 => ⟨S2550000x1, .f32⟩
  | 122 => ⟨S2550000x32, .f32⟩
  | 123 => ⟨S2550000x32, .f32⟩
  | 124 => ⟨S_, .f32⟩
  | 125 => ⟨S150000x32, .f32⟩
  | 126 => ⟨S2550000x1, .i32⟩
  | 127 => ⟨S150000x32, .f32⟩
  | _ => ⟨S150000x2, .f32⟩

abbrev hbmTy0_1 (i : Nat) : BufTy := match i % 128 with
  | 0 => ⟨S1x32, .f32⟩
  | 1 => ⟨S150000x32, .f32⟩
  | 2 => ⟨S150000x32, .f32⟩
  | 3 => ⟨S_, .f32⟩
  | 4 => ⟨S150000x32, .f32⟩
  | 5 => ⟨S150000x32, .f32⟩
  | 6 => ⟨S150000x1, .f32⟩
  | 7 => ⟨S1x1, .f32⟩
  | 8 => ⟨S150000x1, .f32⟩
  | 9 => ⟨S150000x1, .f32⟩
  | 10 => ⟨S150000x1, .f32⟩
  | 11 => ⟨S150000x1, .f32⟩
  | 12 => ⟨S_, .f32⟩
  | 13 => ⟨S150000x1, .f32⟩
  | 14 => ⟨S150000x1, .f32⟩
  | 15 => ⟨S_, .f32⟩
  | 16 => ⟨S150000x1, .f32⟩
  | 17 => ⟨S150000x1, .f32⟩
  | _ => ⟨S150000x2, .f32⟩

abbrev hbmTy (i : Nat) : BufTy := match i / 128 with
  | 0 => hbmTy0_0 i
  | 1 => hbmTy0_1 i
  | _ => ⟨S150000x2, .f32⟩

abbrev bufTy : (tb : Table) → Fin (tcTables nBuf tb) → BufTy
  | .hbm, ⟨i, _⟩ => hbmTy i
  | _, _ => ⟨S150000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_9 : Ref sig .tc := ⟨.hbm, 79, rfl⟩
abbrev main_v56 : Ref sig .tc := ⟨.hbm, 80, rfl⟩
abbrev main_cst_10 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_11 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_12 : Ref sig .tc := ⟨.hbm, 89, rfl⟩
abbrev main_call2_v0 : Ref sig .tc := ⟨.hbm, 90, rfl⟩
abbrev main_call2_v1 : Ref sig .tc := ⟨.hbm, 91, rfl⟩
abbrev main_v63 : Ref sig .tc := ⟨.hbm, 92, rfl⟩
abbrev main_c_13 : Ref sig .tc := ⟨.hbm, 93, rfl⟩
abbrev main_v64 : Ref sig .tc := ⟨.hbm, 94, rfl⟩
abbrev main_v65 : Ref sig .tc := ⟨.hbm, 95, rfl⟩
abbrev main_c_14 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_c_15 : Ref sig .tc := ⟨.hbm, 102, rfl⟩
abbrev main_v71 : Ref sig .tc := ⟨.hbm, 103, rfl⟩
abbrev main_v72 : Ref sig .tc := ⟨.hbm, 104, rfl⟩
abbrev main_c_16 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_c_17 : Ref sig .tc := ⟨.hbm, 112, rfl⟩
abbrev main_v79 : Ref sig .tc := ⟨.hbm, 113, rfl⟩
abbrev main_v80 : Ref sig .tc := ⟨.hbm, 114, rfl⟩
abbrev main_c_18 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_cst_19 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_call3_cst : Ref sig .tc := ⟨.hbm, 131, rfl⟩
abbrev main_call3_v0 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_cst_20 : Ref sig .tc := ⟨.hbm, 140, rfl⟩
abbrev main_v102 : Ref sig .tc := ⟨.hbm, 141, rfl⟩
abbrev main_v103 : Ref sig .tc := ⟨.hbm, 142, rfl⟩
abbrev main_cst_21 : Ref sig .tc := ⟨.hbm, 143, rfl⟩
abbrev main_v104 : Ref sig .tc := ⟨.hbm, 144, rfl⟩
abbrev main_v105 : Ref sig .tc := ⟨.hbm, 145, rfl⟩

abbrev nD : Nat := 1
abbrev τ : Topo := Topo.v7x

variable {F : FTy → Type} [FloatOps F]

class Facts₀ : Prop where
  slices_S2x2400000_S1x2400000_0_0 : S2x2400000.Slices ![0, 0] S1x2400000
  shapeCasts_S1x2400000_S2400000 : S1x2400000.ShapeCasts S2400000
  concatenates_S2400000_S150000_S2550000_d0 : Shape.Concatenates [S2400000, S150000] S2550000 0
  slices_S2x2400000_S1x2400000_1_0 : S2x2400000.Slices ![1, 0] S1x2400000
  bcast_S_S2550000 : S_.BroadcastsInDim S2550000 (![] : Fin 0 → Fin S2550000.rank)
  bcast_S_S150000 : S_.BroadcastsInDim S150000 (![] : Fin 0 → Fin S150000.rank)
  bcast_S2550000_S2550000x1_0 : S2550000.BroadcastsInDim S2550000x1 (![0] : Fin 1 → Fin S2550000x1.rank)
  bcast_S2550000x1_S2550000x32_0_1 : S2550000x1.BroadcastsInDim S2550000x32 (![0, 1] : Fin 2 → Fin S2550000x32.rank)
  bcast_S_S150000x32 : S_.BroadcastsInDim S150000x32 (![] : Fin 0 → Fin S150000x32.rank)
  bcast_S32_S1x32_1 : S32.BroadcastsInDim S1x32 (![1] : Fin 1 → Fin S1x32.rank)
  bcast_S1x32_S150000x32_0_1 : S1x32.BroadcastsInDim S150000x32 (![0, 1] : Fin 2 → Fin S150000x32.rank)
  bcast_S1_S1x1_1 : S1.BroadcastsInDim S1x1 (![1] : Fin 1 → Fin S1x1.rank)
  bcast_S1x1_S150000x1_0_1 : S1x1.BroadcastsInDim S150000x1 (![0, 1] : Fin 2 → Fin S150000x1.rank)
  bcast_S_S150000x1 : S_.BroadcastsInDim S150000x1 (![] : Fin 0 → Fin S150000x1.rank)
  dot_S150000x2_S2x32_S150000x32_1_0_0_1_n_n_wf : DotDims.WF S150000x2 S2x32 S150000x32 [1] [0] [0] [1] [] []
  scatter_S150000_S2550000x1_S2550000_n_0_0_1_wf : ScatterDims.WF S150000 S2550000x1 S2550000 [] [0] [0] 1
  gather_S150000_S2550000x1_S2550000_n_0_n_n_0_1_1_wf : GatherDims.WF S150000 S2550000x1 S2550000 [] [0] [] [0] [] 1 ![1]
  gather_S150000x32_S2550000x1_S2550000x32_1_0_n_n_0_1_132_wf : GatherDims.WF S150000x32 S2550000x1 S2550000x32 [1] [0] [] [0] [] 1 ![1, 32]
  scatter_S150000x32_S2550000x1_S2550000x32_1_0_0_1_wf : ScatterDims.WF S150000x32 S2550000x1 S2550000x32 [1] [0] [0] 1
  dot_S150000x32_S32x32_S150000x32_1_0_0_1_n_n_wf : DotDims.WF S150000x32 S32x32 S150000x32 [1] [0] [0] [1] [] []
  dot_S150000x32_S32x1_S150000x1_1_0_0_1_n_n_wf : DotDims.WF S150000x32 S32x1 S150000x1 [1] [0] [0] [1] [] []

variable [Facts₀]

def dot_S150000x2_S2x32_S150000x32_1_0_0_1_n_n : DotDims S150000x2 S2x32 S150000x32 where
  lhsContracting := [1]
  rhsContracting := [0]
  lhsNonContracting := [0]
  rhsNonContracting := [1]
  lhsBatch := []
  rhsBatch := []
  wf := dot_S150000x2_S2x32_S150000x32_1_0_0_1_n_n_wf
def scatter_S150000_S2550000x1_S2550000_n_0_0_1 : ScatterDims S150000 S2550000x1 S2550000 where
  updateWindowDims := []
  insertedWindowDims := [0]
  scatterDimsToOperandDims := [0]
  indexVectorDim := 1
  wf := scatter_S150000_S2550000x1_S2550000_n_0_0_1_wf
def gather_S150000_S2550000x1_S2550000_n_0_n_n_0_1_1 : GatherDims S150000 S2550000x1 S2550000 where
  offsetDims := []
  collapsedSliceDims := [0]
  operandBatchingDims := []
  startIndicesBatchingDims := []
  startIndexMap := [0]
  indexVectorDim := 1
  sliceSizes := ![1]
  wf := gather_S150000_S2550000x1_S2550000_n_0_n_n_0_1_1_wf
def gather_S150000x32_S2550000x1_S2550000x32_1_0_n_n_0_1_132 : GatherDims S150000x32 S2550000x1 S2550000x32 where
  offsetDims := [1]
  collapsedSliceDims := [0]
  operandBatchingDims := []
  startIndicesBatchingDims := []
  startIndexMap := [0]
  indexVectorDim := 1
  sliceSizes := ![1, 32]
  wf := gather_S150000x32_S2550000x1_S2550000x32_1_0_n_n_0_1_132_wf
def scatter_S150000x32_S2550000x1_S2550000x32_1_0_0_1 : ScatterDims S150000x32 S2550000x1 S2550000x32 where
  updateWindowDims := [1]
  insertedWindowDims := [0]
  scatterDimsToOperandDims := [0]
  indexVectorDim := 1
  wf := scatter_S150000x32_S2550000x1_S2550000x32_1_0_0_1_wf
def dot_S150000x32_S32x32_S150000x32_1_0_0_1_n_n : DotDims S150000x32 S32x32 S150000x32 where
  lhsContracting := [1]
  rhsContracting := [0]
  lhsNonContracting := [0]
  rhsNonContracting := [1]
  lhsBatch := []
  rhsBatch := []
  wf := dot_S150000x32_S32x32_S150000x32_1_0_0_1_n_n_wf
def dot_S150000x32_S32x1_S150000x1_1_0_0_1_n_n : DotDims S150000x32 S32x1 S150000x1 where
  lhsContracting := [1]
  rhsContracting := [0]
  lhsNonContracting := [0]
  rhsNonContracting := [1]
  lhsBatch := []
  rhsBatch := []
  wf := dot_S150000x32_S32x1_S150000x1_1_0_0_1_n_n_wf

class Facts : Prop extends Facts₀ where

variable [Facts]
-- ==== Proof.Spec.lean ====
/-
  The dense stages of a two-layer graph convolution with a sigmoid read-out, each as ONE function of whole arrays over the
  extended reals, entry by entry. With `n = 150000` nodes:

    lin   x w       (i, j) = Σ_k x(i,k) · w(k,j)                                  k over 2 input features
    layer a b w     (i, j) = Σ_k max(a(i,k) + b(k), 0) · w(k,j)                    k over 32 hidden features
    head  a b w β   (i, j) = σ( Σ_k max(a(i,k) + b(k), 0) · w(k,j) + β(j) ),       σ(t) = 1 / (1 + e^(−t)),  j over 1 output

  The tiled program computes each of these 5000 rows at a time; the plain program computes each with one whole matrix product.
  Both are these functions: a row of the product depends on that row of the left factor only, so cutting the rows into
  blocks changes nothing, and a change of float format is the identity on the extended reals.
-/
import Idealize.ShloMosaic.PureOps.Ideal
import Idealize.ShloMosaic.Lib.ValueIdx

noncomputable section

namespace Cert.Gcn

open Idealize.ShloMosaic Idealize.ShloMosaic.ValueIdx

/-- The row of an entry of a two-axis array over the nodes. -/
abbrev rowOf {n : Nat} (i : (⟨2, ![150000, n]⟩ : Shape).Idx) : Fin 150000 := ⟨(i 0).val, (i 0).isLt⟩
/-- The column of an entry of a two-axis array over the nodes. -/
abbrev colOf {n : Nat} (i : (⟨2, ![150000, n]⟩ : Shape).Idx) : Fin n := ⟨(i 1).val, (i 1).isLt⟩

/-- The first projection: node features times the first weight matrix. -/
def lin (x : FVec Ideal ⟨2, ![150000, 2]⟩ .f32) (w : FVec Ideal ⟨2, ![2, 32]⟩ .f32) : FVec Ideal ⟨2, ![150000, 32]⟩ .f32 :=
  fun i => ∑ k : Fin 2, x (ix2 (rowOf i) k) * w (ix2 k (colOf i))

/-- The hidden unit of a row: the aggregated feature plus its bias, cut off below at zero. -/
def hidden (a : FVec Ideal ⟨2, ![150000, 32]⟩ .f32) (b : FVec Ideal ⟨1, ![32]⟩ .f32) (r : Fin 150000) (k : Fin 32) : EReal :=
  max (a (ix2 r k) + b (ix1 k)) 0

/-- The second projection: the hidden units of the first layer times the second weight matrix. -/
def layer (a : FVec Ideal ⟨2, ![150000, 32]⟩ .f32) (b : FVec Ideal ⟨1, ![32]⟩ .f32) (w : FVec Ideal ⟨2, ![32, 32]⟩ .f32) :
    FVec Ideal ⟨2, ![150000, 32]⟩ .f32 :=
  fun i => ∑ k : Fin 32, hidden a b (rowOf i) k * w (ix2 k (colOf i))

/-- The read-out: the hidden units of the second layer against the output weights, plus the output bias, through the
    logistic function. -/
def head (a : FVec Ideal ⟨2, ![150000, 32]⟩ .f32) (b : FVec Ideal ⟨1, ![32]⟩ .f32) (w : FVec Ideal ⟨2, ![32, 1]⟩ .f32)
    (β : FVec Ideal ⟨1, ![1]⟩ .f32) : FVec Ideal ⟨2, ![150000, 1]⟩ .f32 :=
  fun i => Ideal.logistic ((∑ k : Fin 32, hidden a b (rowOf i) k * w (ix2 k (colOf i))) + β (ix1 (colOf i)))

end Cert.Gcn

end
-- ==== Proof.Stage0.lean ====
/-
  The first tiled stage. The grid has 30 points; point `t` reads rows 5000·t … 5000·t + 4999 of the node features (all 2
  columns) and the whole 2 × 32 weight matrix, and writes the same rows of the result, all 32 columns. Row `p` of that
  block is Σ_k x(5000·t + p, k) · w(k, q): row 5000·t + p of the whole product `Gcn.lin x w`. Since the 30 row blocks tile
  the 150000 rows, the result array ends holding `Gcn.lin x w`.
  Everything is stated at the contents `V` the stage is entered with, whatever they are.
-/
import proofs.«119091_j25228637897420_1_alg».proof.Proof.Gen.KernelIdeal.Frame
import proofs.«119091_j25228637897420_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Stage0

open Cert.KernelIdeal Cert.KernelIdeal.Gen Cert.Gcn
open Idealize.ShloMosaic Idealize.ShloMosaic.TcCoe Idealize.ShloMosaic.ValueIdx Idealize.SL.Sem

/-! ## The block product at an entry -/

abbrev dd := dot_S5000x2_S2x32_S5000x32_1_0_0_1_n_n

theorem lhs_0 (i : S5000x32.Idx) (q : dot_S5000x2_S2x32_S5000x32_1_0_0_1_n_n.contr.Idx) :
    (dot_S5000x2_S2x32_S5000x32_1_0_0_1_n_n.lhsIdx i q 0).val = (i 0).val := by
  unfold DotDims.lhsIdx
  rw [dif_neg (show ¬(0 : Fin S5000x2.rank) ∈ dot_S5000x2_S2x32_S5000x32_1_0_0_1_n_n.lhsBatch by decide), dif_pos (show (0 : Fin S5000x2.rank) ∈ dot_S5000x2_S2x32_S5000x32_1_0_0_1_n_n.lhsNonContracting by decide)]
  rfl
theorem lhs_1 (i : S5000x32.Idx) (q : dot_S5000x2_S2x32_S5000x32_1_0_0_1_n_n.contr.Idx) :
    (dot_S5000x2_S2x32_S5000x32_1_0_0_1_n_n.lhsIdx i q 1).val = (q ⟨0, by decide⟩).val :=
  dot_S5000x2_S2x32_S5000x32_1_0_0_1_n_n.lhsIdx_val_of_single rfl i q
theorem rhs_0 (i : S5000x32.Idx) (q : dot_S5000x2_S2x32_S5000x32_1_0_0_1_n_n.contr.Idx) :
    (dot_S5000x2_S2x32_S5000x32_1_0_0_1_n_n.rhsIdx i q 0).val = (q ⟨0, by decide⟩).val :=
  dot_S5000x2_S2x32_S5000x32_1_0_0_1_n_n.rhsIdx_val_of_single rfl i q
theorem rhs_1 (i : S5000x32.Idx) (q : dot_S5000x2_S2x32_S5000x32_1_0_0_1_n_n.contr.Idx) :
    (dot_S5000x2_S2x32_S5000x32_1_0_0_1_n_n.rhsIdx i q 1).val = (i 1).val := by
  unfold DotDims.rhsIdx
  rw [dif_neg (show ¬(1 : Fin S2x32.rank) ∈ dot_S5000x2_S2x32_S5000x32_1_0_0_1_n_n.rhsBatch by decide), dif_pos (show (1 : Fin S2x32.rank) ∈ dot_S5000x2_S2x32_S5000x32_1_0_0_1_n_n.rhsNonContracting by decide)]
  rfl

/-- Entry (p, q) of the block the body stores: row p of the feature block against column q of the weights. -/
theorem pay_apply (x0 : Vec Ideal S5000x2 .f32) (x1 : Vec Ideal S2x32 .f32) (p : Fin 5000) (q : Fin 32) :
    k0_pay1 (F := Ideal) x0 x1 (ix2 p q) = ∑ k : Fin 2, x0 (ix2 p k) * x1 (ix2 k q) := by
  unfold k0_pay1
  simp only [matmul]
  rw [Ideal.matmul_constant_zero_apply, ← Equiv.sum_comp (ValueIdx.contrEquiv1 dot_S5000x2_S2x32_S5000x32_1_0_0_1_n_n 2 rfl rfl).symm]
  refine Finset.sum_congr rfl fun k _ => ?_
  have hk := ValueIdx.contrEquiv1_symm_val dot_S5000x2_S2x32_S5000x32_1_0_0_1_n_n 2 rfl rfl k
  have el : dot_S5000x2_S2x32_S5000x32_1_0_0_1_n_n.lhsIdx (ix2 p q) ((ValueIdx.contrEquiv1 dot_S5000x2_S2x32_S5000x32_1_0_0_1_n_n 2 rfl rfl).symm k) = ix2 p k := funext fun a => Fin.ext (by
    match a with
    | ⟨0, _⟩ => exact lhs_0 _ _
    | ⟨1, _⟩ => exact (lhs_1 _ _).trans hk)
  have er : dot_S5000x2_S2x32_S5000x32_1_0_0_1_n_n.rhsIdx (ix2 p q) ((ValueIdx.contrEquiv1 dot_S5000x2_S2x32_S5000x32_1_0_0_1_n_n 2 rfl rfl).symm k) = ix2 k q := funext fun a => Fin.ext (by
    match a with
    | ⟨0, _⟩ => exact (rhs_0 _ _).trans hk
    | ⟨1, _⟩ => exact rhs_1 _ _)
  rw [el, er]
  rfl

/-! ## The blocks read through their windows -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the feature and the result windows move down the rows with the point, the
    weight window stays. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `p` of point `t`'s block is row `5000·t + p` of the array. -/
abbrev rowAt (t : Fin cfg0.N) (p : Fin 5000) : Fin 150000 :=
  ⟨t.val * 5000 + p.val, by have ht : t.val < 30 := t.isLt; have hp := p.isLt; omega⟩

/-- Entry (p, k) of the feature block at point `t` is entry (5000·t + p, k) of the features. -/
theorem xblk_apply (c : Dev nD) (t : Fin cfg0.N) (p : Fin 5000) (k : Fin 2) :
    (iblk0 V c 0 t : Vec Ideal S5000x2 .f32) (ix2 p k) = V c main_arg0 (ix2 (rowAt t p) k) := by
  obtain ⟨e0, e1, -⟩ := idx_facts t
  show V c main_arg0 (((cfg0.win 0).blk t).view.emb (ix2 p k)) = _
  refine congrArg _ (funext fun a => Fin.ext ?_)
  match a with
  | ⟨0, _⟩ => show win0_0.index t (0 : Fin 2) * 5000 + 1 * p.val = t.val * 5000 + p.val; omega
  | ⟨1, _⟩ => show win0_0.index t (1 : Fin 2) * 2 + 1 * k.val = k.val; omega

/-- The weight block at every point is the whole weight matrix. -/
theorem wblk_apply (c : Dev nD) (t : Fin cfg0.N) (k : Fin 2) (q : Fin 32) :
    (iblk0 V c 1 t : Vec Ideal S2x32 .f32) (ix2 k q) = V c main_arg2 (ix2 k q) := by
  obtain ⟨-, -, e2, e3, -⟩ := idx_facts t
  show V c main_arg2 (((cfg0.win 1).blk t).view.emb (ix2 k q)) = _
  refine congrArg _ (funext fun a => Fin.ext ?_)
  match a with
  | ⟨0, _⟩ => show win0_1.index t (0 : Fin 2) * 2 + 1 * k.val = k.val; omega
  | ⟨1, _⟩ => show win0_1.index t (1 : Fin 2) * 32 + 1 * q.val = q.val; omega

/-- What the body stores at point `t`, entry by entry: rows 5000·t … of the whole product. -/
theorem block_eq (c : Dev nD) (t : Fin cfg0.N) :
    k0_pay1 (F := Ideal) (iblk0 V c 0 t) (iblk0 V c 1 t)
      = fun y : S5000x32.Idx => lin (V c main_arg0) (V c main_arg2) (ix2 (rowAt t ⟨(y 0).val, (y 0).isLt⟩) (⟨(y 1).val, (y 1).isLt⟩ : Fin 32)) := by
  funext y
  obtain ⟨p, q, rfl⟩ : ∃ (p : Fin 5000) (q : Fin 32), y = ix2 p q := ⟨y 0, y 1, eq_ix2 y⟩
  refine (pay_apply (iblk0 V c 0 t) (iblk0 V c 1 t) p q).trans ?_
  unfold lin
  refine Finset.sum_congr rfl fun k _ => ?_
  rw [xblk_apply V c t p k, wblk_apply V c t k q]

/-- WHAT POINT `t` WRITES BACK is block `t` of the whole product of the arrays as the stage finds them. -/
theorem flushed_eq (c : Dev nD) (t : Fin cfg0.N) :
    (dat0 V c).flushed 2 t = ((cfg0.win 2).blk t).view.read (Elt Ideal) (lin (V c main_arg0) (V c main_arg2)) := by
  show (cfg0.win 2).cut (grid0.coords t) ((dat0 V c).after 2 t) = _
  rw [after0_2]
  unfold out0_2
  rw [View.canon_unit_zero hz]
  simp only [View.ld_unit_zero (S := S5000x2) hz, View.ld_unit_zero (S := S2x32) hz]
  rw [block_eq V c t]
  obtain ⟨-, -, -, -, e4, e5⟩ := idx_facts t
  funext j
  show lin (V c main_arg0) (V c main_arg2) (ix2 (rowAt t ⟨(j 0).val, (j 0).isLt⟩) (⟨(j 1).val, (j 1).isLt⟩ : Fin 32))
    = lin (V c main_arg0) (V c main_arg2) (((cfg0.win 2).blk t).view.emb j)
  refine congrArg _ (funext fun a => Fin.ext ?_)
  match a with
  | ⟨0, _⟩ => show t.val * 5000 + (j 0).val = win0_2.index t (0 : Fin 2) * 5000 + 1 * (j 0).val; omega
  | ⟨1, _⟩ => show (j 1).val = win0_2.index t (1 : Fin 2) * 32 + 1 * (j 1).val; omega

/-! ## The row blocks tile the array -/

/-- An entry of the array is in point `t`'s block iff each coordinate is in the block's range on its axis. -/
theorem mem_blk (t : Fin cfg0.N) (i : S150000x32.Idx) :
    i ∈ ((cfg0.win 2).blk t).view.set ↔ ∀ a : Fin 2, win0_2.index t a * S5000x32.size a ≤ (i a).val ∧ (i a).val < win0_2.index t a * S5000x32.size a + S5000x32.size a := by
  show i ∈ ((View.whole main_v30).slice (win0_2.rect t)).set ↔ _
  rw [View.set_slice_whole, Rect.mem_set_unit]
  exact Iff.rfl

/-- Row `r` lies in the block of point `r / 5000`. -/
theorem cover (i : S150000x32.Idx) : ∃ t : Fin cfg0.N, (cfg0.win 2).flush t = true ∧ i ∈ ((cfg0.win 2).blk t).view.set := by
  have hi0 : (i 0).val < 150000 := (i 0).isLt
  have hi1 : (i 1).val < 32 := (i 1).isLt
  have ht : (i 0).val / 5000 < 30 := by omega
  obtain ⟨-, -, -, -, e4, e5⟩ := idx_facts ⟨(i 0).val / 5000, ht⟩
  refine ⟨⟨(i 0).val / 5000, ht⟩, flush0_2 _, ?_⟩
  rw [mem_blk]
  intro a
  match a with
  | ⟨0, _⟩ =>
    show win0_2.index ⟨(i 0).val / 5000, ht⟩ (0 : Fin 2) * 5000 ≤ (i 0).val ∧ (i 0).val < win0_2.index ⟨(i 0).val / 5000, ht⟩ (0 : Fin 2) * 5000 + 5000
    have e : win0_2.index ⟨(i 0).val / 5000, ht⟩ (0 : Fin 2) = (i 0).val / 5000 := e4
    omega
  | ⟨1, _⟩ =>
    show win0_2.index ⟨(i 0).val / 5000, ht⟩ (1 : Fin 2) * 32 ≤ (i 1).val ∧ (i 1).val < win0_2.index ⟨(i 0).val / 5000, ht⟩ (1 : Fin 2) * 32 + 32
    omega

/-- THE RESULT ARRAY of the stage: the whole product of the feature array and the weight array it was entered with. -/
theorem final (c : Dev nD) : (dat0 V c).arrAt 2 cfg0.N = lin (V c main_arg0) (V c main_arg2) :=
  (dat0 V c).arrAt_eq_of_cover 2 (lin (V c main_arg0) (V c main_arg2)) (fun t _ => flushed_eq V c t) (cover)

end Cert.KernelIdeal.Stage0

end
-- ==== Proof.Stage1.lean ====
/-
  The second tiled stage. Point `t` of 30 reads rows 5000·t … 5000·t + 4999 of the aggregated features (32 columns), the
  1 × 32 bias row and the whole 32 × 32 weight matrix, forms max(a + b, 0) entry by entry, and writes that block times the
  weights to the same rows of the result. Row `p` of the block is row 5000·t + p of `Gcn.layer a b w`; the 30 row blocks
  tile the 150000 rows, so the result array ends holding `Gcn.layer a b w`, with `b` the bias row read along its 32 entries.
  Everything is stated at the contents `V` the stage is entered with, whatever they are.
-/
import proofs.«119091_j25228637897420_1_alg».proof.Proof.Gen.KernelIdeal.Frame
import proofs.«119091_j25228637897420_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Stage1

open Cert.KernelIdeal Cert.KernelIdeal.Gen Cert.Gcn
open Idealize.ShloMosaic Idealize.ShloMosaic.TcCoe Idealize.ShloMosaic.ValueIdx Idealize.SL.Sem

/-! ## The block product at an entry -/

theorem lhs_0 (i : S5000x32.Idx) (q : dot_S5000x32_S32x32_S5000x32_1_0_0_1_n_n.contr.Idx) :
    (dot_S5000x32_S32x32_S5000x32_1_0_0_1_n_n.lhsIdx i q 0).val = (i 0).val := by
  unfold DotDims.lhsIdx
  rw [dif_neg (show ¬(0 : Fin S5000x32.rank) ∈ dot_S5000x32_S32x32_S5000x32_1_0_0_1_n_n.lhsBatch by decide), dif_pos (show (0 : Fin S5000x32.rank) ∈ dot_S5000x32_S32x32_S5000x32_1_0_0_1_n_n.lhsNonContracting by decide)]
  rfl
theorem lhs_1 (i : S5000x32.Idx) (q : dot_S5000x32_S32x32_S5000x32_1_0_0_1_n_n.contr.Idx) :
    (dot_S5000x32_S32x32_S5000x32_1_0_0_1_n_n.lhsIdx i q 1).val = (q ⟨0, by decide⟩).val :=
  dot_S5000x32_S32x32_S5000x32_1_0_0_1_n_n.lhsIdx_val_of_single rfl i q
theorem rhs_0 (i : S5000x32.Idx) (q : dot_S5000x32_S32x32_S5000x32_1_0_0_1_n_n.contr.Idx) :
    (dot_S5000x32_S32x32_S5000x32_1_0_0_1_n_n.rhsIdx i q 0).val = (q ⟨0, by decide⟩).val :=
  dot_S5000x32_S32x32_S5000x32_1_0_0_1_n_n.rhsIdx_val_of_single rfl i q
theorem rhs_1 (i : S5000x32.Idx) (q : dot_S5000x32_S32x32_S5000x32_1_0_0_1_n_n.contr.Idx) :
    (dot_S5000x32_S32x32_S5000x32_1_0_0_1_n_n.rhsIdx i q 1).val = (i 1).val := by
  unfold DotDims.rhsIdx
  rw [dif_neg (show ¬(1 : Fin S32x32.rank) ∈ dot_S5000x32_S32x32_S5000x32_1_0_0_1_n_n.rhsBatch by decide), dif_pos (show (1 : Fin S32x32.rank) ∈ dot_S5000x32_S32x32_S5000x32_1_0_0_1_n_n.rhsNonContracting by decide)]
  rfl

/-- The bias row spread over the block's rows, read at an entry. -/
theorem bias_apply (v2 : Vec Ideal S1x32 .f32) (p : Fin 5000) (k : Fin 32) :
    broadcastTo S5000x32 v2 broadcasts_S1x32_S5000x32 (ix2 p k) = v2 (ix2 0 k) :=
  broadcastTo_apply v2 broadcasts_S1x32_S5000x32 (ix2 p k) (ix2 0 k) (fun a => match a with
    | ⟨0, _⟩ => by show 0 = if (1 : Nat) = 1 then 0 else _; rw [if_pos rfl]
    | ⟨1, _⟩ => by show k.val = if (32 : Nat) = 1 then 0 else k.val; rw [if_neg (by decide)])

/-- Entry (p, q) of the block the body stores: the hidden units of row p against column q of the weights. -/
theorem pay_apply (v0 : Vec Ideal S5000x32 .f32) (v2 : Vec Ideal S1x32 .f32) (v9 : Vec Ideal S32x32 .f32) (p : Fin 5000) (q : Fin 32) :
    k1_pay1 (F := Ideal) v0 v2 v9 (ix2 p q) = ∑ k : Fin 32, max (v0 (ix2 p k) + v2 (ix2 0 k)) 0 * v9 (ix2 k q) := by
  unfold k1_pay1
  rw [shapeCast_self, shapeCast_self]
  simp only [matmul]
  rw [Ideal.matmul_constant_zero_apply, ← Equiv.sum_comp (ValueIdx.contrEquiv1 dot_S5000x32_S32x32_S5000x32_1_0_0_1_n_n 32 rfl rfl).symm]
  refine Finset.sum_congr rfl fun k _ => ?_
  have hk := ValueIdx.contrEquiv1_symm_val dot_S5000x32_S32x32_S5000x32_1_0_0_1_n_n 32 rfl rfl k
  have el : dot_S5000x32_S32x32_S5000x32_1_0_0_1_n_n.lhsIdx (ix2 p q) ((ValueIdx.contrEquiv1 dot_S5000x32_S32x32_S5000x32_1_0_0_1_n_n 32 rfl rfl).symm k) = ix2 p k := funext fun a => Fin.ext (by
    match a with
    | ⟨0, _⟩ => exact lhs_0 _ _
    | ⟨1, _⟩ => exact (lhs_1 _ _).trans hk)
  have er : dot_S5000x32_S32x32_S5000x32_1_0_0_1_n_n.rhsIdx (ix2 p q) ((ValueIdx.contrEquiv1 dot_S5000x32_S32x32_S5000x32_1_0_0_1_n_n 32 rfl rfl).symm k) = ix2 k q := funext fun a => Fin.ext (by
    match a with
    | ⟨0, _⟩ => exact (rhs_0 _ _).trans hk
    | ⟨1, _⟩ => exact rhs_1 _ _)
  rw [el, er]
  show max (v0 (ix2 p k) + broadcastTo S5000x32 v2 broadcasts_S1x32_S5000x32 (ix2 p k)) (Ideal.ofBits .f32 0x00000000#32) * v9 (ix2 k q) = _
  rw [bias_apply, Ideal.ofBits_zero_f32]

/-! ## The blocks read through their windows -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the feature and the result windows move down the rows with the point, the
    bias and the weight windows stay. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row `p` of point `t`'s block is row `5000·t + p` of the array. -/
abbrev rowAt (t : Fin cfg1.N) (p : Fin 5000) : Fin 150000 :=
  ⟨t.val * 5000 + p.val, by have ht : t.val < 30 := t.isLt; have hp := p.isLt; omega⟩

/-- The bias row as a vector along its 32 entries. -/
abbrev biasOf (b : FVec Ideal ⟨2, ![1, 32]⟩ .f32) : FVec Ideal ⟨1, ![32]⟩ .f32 := fun k => b (ix2 0 ⟨(k 0).val, (k 0).isLt⟩)

theorem ablk_apply (c : Dev nD) (t : Fin cfg1.N) (p : Fin 5000) (k : Fin 32) :
    (iblk1 V c 0 t : Vec Ideal S5000x32 .f32) (ix2 p k) = V c main_v43 (ix2 (rowAt t p) k) := by
  obtain ⟨e0, e1, -⟩ := idx_facts t
  show V c main_v43 (((cfg1.win 0).blk t).view.emb (ix2 p k)) = _
  refine congrArg _ (funext fun a => Fin.ext ?_)
  match a with
  | ⟨0, _⟩ => show win1_0.index t (0 : Fin 2) * 5000 + 1 * p.val = t.val * 5000 + p.val; omega
  | ⟨1, _⟩ => show win1_0.index t (1 : Fin 2) * 32 + 1 * k.val = k.val; omega

theorem bblk_apply (c : Dev nD) (t : Fin cfg1.N) (k : Fin 32) :
    (iblk1 V c 1 t : Vec Ideal S1x32 .f32) (ix2 0 k) = V c main_v44 (ix2 0 k) := by
  obtain ⟨-, -, e2, e3, -⟩ := idx_facts t
  show V c main_v44 (((cfg1.win 1).blk t).view.emb (ix2 0 k)) = _
  refine congrArg _ (funext fun a => Fin.ext ?_)
  match a with
  | ⟨0, _⟩ => show win1_1.index t (0 : Fin 2) * 1 + 1 * 0 = 0; omega
  | ⟨1, _⟩ => show win1_1.index t (1 : Fin 2) * 32 + 1 * k.val = k.val; omega

theorem wblk_apply (c : Dev nD) (t : Fin cfg1.N) (k : Fin 32) (q : Fin 32) :
    (iblk1 V c 2 t : Vec Ideal S32x32 .f32) (ix2 k q) = V c main_arg4 (ix2 k q) := by
  obtain ⟨-, -, -, -, e4, e5, -⟩ := idx_facts t
  show V c main_arg4 (((cfg1.win 2).blk t).view.emb (ix2 k q)) = _
  refine congrArg _ (funext fun a => Fin.ext ?_)
  match a with
  | ⟨0, _⟩ => show win1_2.index t (0 : Fin 2) * 32 + 1 * k.val = k.val; omega
  | ⟨1, _⟩ => show win1_2.index t (1 : Fin 2) * 32 + 1 * q.val = q.val; omega

/-- What the body stores at point `t`, entry by entry: rows 5000·t … of the whole layer. -/
theorem block_eq (c : Dev nD) (t : Fin cfg1.N) :
    k1_pay1 (F := Ideal) (iblk1 V c 0 t) (iblk1 V c 1 t) (iblk1 V c 2 t)
      = fun y : S5000x32.Idx => layer (V c main_v43) (biasOf (V c main_v44)) (V c main_arg4) (ix2 (rowAt t ⟨(y 0).val, (y 0).isLt⟩) (⟨(y 1).val, (y 1).isLt⟩ : Fin 32)) := by
  funext y
  obtain ⟨p, q, rfl⟩ : ∃ (p : Fin 5000) (q : Fin 32), y = ix2 p q := ⟨y 0, y 1, eq_ix2 y⟩
  refine (pay_apply (iblk1 V c 0 t) (iblk1 V c 1 t) (iblk1 V c 2 t) p q).trans ?_
  unfold layer Gcn.hidden
  refine Finset.sum_congr rfl fun k _ => ?_
  rw [ablk_apply V c t p k, bblk_apply V c t k, wblk_apply V c t k q]

/-- WHAT POINT `t` WRITES BACK is block `t` of the whole layer of the arrays as the stage finds them. -/
theorem flushed_eq (c : Dev nD) (t : Fin cfg1.N) :
    (dat1 V c).flushed 3 t = ((cfg1.win 3).blk t).view.read (Elt Ideal) (layer (V c main_v43) (biasOf (V c main_v44)) (V c main_arg4)) := by
  show (cfg1.win 3).cut (grid1.coords t) ((dat1 V c).after 3 t) = _
  rw [after1_3]
  unfold out1_3
  rw [View.canon_unit_zero hz]
  simp only [View.ld_unit_zero (S := S5000x32) hz, View.ld_unit_zero (S := S1x32) hz, View.ld_unit_zero (S := S32x32) hz]
  rw [block_eq V c t]
  obtain ⟨-, -, -, -, -, -, e6, e7⟩ := idx_facts t
  funext j
  show layer (V c main_v43) (biasOf (V c main_v44)) (V c main_arg4) (ix2 (rowAt t ⟨(j 0).val, (j 0).isLt⟩) (⟨(j 1).val, (j 1).isLt⟩ : Fin 32))
    = layer (V c main_v43) (biasOf (V c main_v44)) (V c main_arg4) (((cfg1.win 3).blk t).view.emb j)
  refine congrArg _ (funext fun a => Fin.ext ?_)
  match a with
  | ⟨0, _⟩ => show t.val * 5000 + (j 0).val = win1_3.index t (0 : Fin 2) * 5000 + 1 * (j 0).val; omega
  | ⟨1, _⟩ => show (j 1).val = win1_3.index t (1 : Fin 2) * 32 + 1 * (j 1).val; omega

/-! ## The row blocks tile the array -/

theorem mem_blk (t : Fin cfg1.N) (i : S150000x32.Idx) :
    i ∈ ((cfg1.win 3).blk t).view.set ↔ ∀ a : Fin 2, win1_3.index t a * S5000x32.size a ≤ (i a).val ∧ (i a).val < win1_3.index t a * S5000x32.size a + S5000x32.size a := by
  show i ∈ ((View.whole main_v45).slice (win1_3.rect t)).set ↔ _
  rw [View.set_slice_whole, Rect.mem_set_unit]
  exact Iff.rfl

/-- Row `r` lies in the block of point `r / 5000`. -/
theorem cover (i : S150000x32.Idx) : ∃ t : Fin cfg1.N, (cfg1.win 3).flush t = true ∧ i ∈ ((cfg1.win 3).blk t).view.set := by
  have hi0 : (i 0).val < 150000 := (i 0).isLt
  have hi1 : (i 1).val < 32 := (i 1).isLt
  have ht : (i 0).val / 5000 < 30 := by omega
  obtain ⟨-, -, -, -, -, -, e6, e7⟩ := idx_facts ⟨(i 0).val / 5000, ht⟩
  refine ⟨⟨(i 0).val / 5000, ht⟩, flush1_3 _, ?_⟩
  rw [mem_blk]
  intro a
  match a with
  | ⟨0, _⟩ =>
    show win1_3.index ⟨(i 0).val / 5000, ht⟩ (0 : Fin 2) * 5000 ≤ (i 0).val ∧ (i 0).val < win1_3.index ⟨(i 0).val / 5000, ht⟩ (0 : Fin 2) * 5000 + 5000
    have e : win1_3.index ⟨(i 0).val / 5000, ht⟩ (0 : Fin 2) = (i 0).val / 5000 := e6
    omega
  | ⟨1, _⟩ =>
    show win1_3.index ⟨(i 0).val / 5000, ht⟩ (1 : Fin 2) * 32 ≤ (i 1).val ∧ (i 1).val < win1_3.index ⟨(i 0).val / 5000, ht⟩ (1 : Fin 2) * 32 + 32
    omega

/-- THE RESULT ARRAY of the stage: the whole layer of the arrays it was entered with. -/
theorem final (c : Dev nD) : (dat1 V c).arrAt 3 cfg1.N = layer (V c main_v43) (biasOf (V c main_v44)) (V c main_arg4) :=
  (dat1 V c).arrAt_eq_of_cover 3 (layer (V c main_v43) (biasOf (V c main_v44)) (V c main_arg4)) (fun t _ => flushed_eq V c t) (cover)

end Cert.KernelIdeal.Stage1

end
-- ==== Proof.Stage2.lean ====
/-
  The third tiled stage. Point `t` of 30 reads rows 5000·t … 5000·t + 4999 of the aggregated features (32 columns), the
  1 × 32 bias row, the 32 × 1 output weights and the 1 × 1 output bias, forms max(a + b, 0) entry by entry, multiplies by the
  weights, adds the output bias and applies the logistic function; it writes the 5000 × 1 block to the same rows of the
  result. Row `p` of the block is row 5000·t + p of `Gcn.head a b w β`; the 30 row blocks tile the 150000 rows, so the result
  array ends holding `Gcn.head a b w β`. Everything is stated at the contents `V` the stage is entered with.
-/
import proofs.«119091_j25228637897420_1_alg».proof.Proof.Gen.KernelIdeal.Frame
import proofs.«119091_j25228637897420_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Stage2

open Cert.KernelIdeal Cert.KernelIdeal.Gen Cert.Gcn
open Idealize.ShloMosaic Idealize.ShloMosaic.TcCoe Idealize.ShloMosaic.ValueIdx Idealize.SL.Sem

/-! ## The block product at an entry -/

theorem lhs_0 (i : S5000x1.Idx) (q : dot_S5000x32_S32x1_S5000x1_1_0_0_1_n_n.contr.Idx) :
    (dot_S5000x32_S32x1_S5000x1_1_0_0_1_n_n.lhsIdx i q 0).val = (i 0).val := by
  unfold DotDims.lhsIdx
  rw [dif_neg (show ¬(0 : Fin S5000x32.rank) ∈ dot_S5000x32_S32x1_S5000x1_1_0_0_1_n_n.lhsBatch by decide), dif_pos (show (0 : Fin S5000x32.rank) ∈ dot_S5000x32_S32x1_S5000x1_1_0_0_1_n_n.lhsNonContracting by decide)]
  rfl
theorem lhs_1 (i : S5000x1.Idx) (q : dot_S5000x32_S32x1_S5000x1_1_0_0_1_n_n.contr.Idx) :
    (dot_S5000x32_S32x1_S5000x1_1_0_0_1_n_n.lhsIdx i q 1).val = (q ⟨0, by decide⟩).val :=
  dot_S5000x32_S32x1_S5000x1_1_0_0_1_n_n.lhsIdx_val_of_single rfl i q
theorem rhs_0 (i : S5000x1.Idx) (q : dot_S5000x32_S32x1_S5000x1_1_0_0_1_n_n.contr.Idx) :
    (dot_S5000x32_S32x1_S5000x1_1_0_0_1_n_n.rhsIdx i q 0).val = (q ⟨0, by decide⟩).val :=
  dot_S5000x32_S32x1_S5000x1_1_0_0_1_n_n.rhsIdx_val_of_single rfl i q
theorem rhs_1 (i : S5000x1.Idx) (q : dot_S5000x32_S32x1_S5000x1_1_0_0_1_n_n.contr.Idx) :
    (dot_S5000x32_S32x1_S5000x1_1_0_0_1_n_n.rhsIdx i q 1).val = (i 1).val := by
  unfold DotDims.rhsIdx
  rw [dif_neg (show ¬(1 : Fin S32x1.rank) ∈ dot_S5000x32_S32x1_S5000x1_1_0_0_1_n_n.rhsBatch by decide), dif_pos (show (1 : Fin S32x1.rank) ∈ dot_S5000x32_S32x1_S5000x1_1_0_0_1_n_n.rhsNonContracting by decide)]
  rfl

/-- The bias row spread over the block's rows, read at an entry. -/
theorem bias_apply (v2 : Vec Ideal S1x32 .f32) (p : Fin 5000) (k : Fin 32) :
    broadcastTo S5000x32 v2 broadcasts_S1x32_S5000x32 (ix2 p k) = v2 (ix2 0 k) :=
  broadcastTo_apply v2 broadcasts_S1x32_S5000x32 (ix2 p k) (ix2 0 k) (fun a => match a with
    | ⟨0, _⟩ => by show 0 = if (1 : Nat) = 1 then 0 else _; rw [if_pos rfl]
    | ⟨1, _⟩ => by show k.val = if (32 : Nat) = 1 then 0 else k.val; rw [if_neg (by decide)])

/-- The output bias spread over the block's rows, read at an entry. -/
theorem obias_apply (v12 : Vec Ideal S1x1 .f32) (p : Fin 5000) (q : Fin 1) :
    broadcastTo S5000x1 v12 broadcasts_S1x1_S5000x1 (ix2 p q) = v12 (ix2 0 q) :=
  broadcastTo_apply v12 broadcasts_S1x1_S5000x1 (ix2 p q) (ix2 0 q) (fun a => match a with
    | ⟨0, _⟩ => by show 0 = if (1 : Nat) = 1 then 0 else _; rw [if_pos rfl]
    | ⟨1, _⟩ => by show q.val = if (1 : Nat) = 1 then 0 else q.val; rw [if_pos rfl]; have := q.isLt; omega)

/-- The block product alone at an entry: the hidden units of row p against the output weights. -/
theorem prod_apply (v0 : Vec Ideal S5000x32 .f32) (v2 : Vec Ideal S1x32 .f32) (v9 : Vec Ideal S32x1 .f32) (p : Fin 5000) (q : Fin 1) :
    matmul (F := Ideal) dot_S5000x32_S32x1_S5000x1_1_0_0_1_n_n none
        (truncf .bf16 (maximumf (addf v0 (broadcastTo S5000x32 v2 broadcasts_S1x32_S5000x32)) (broadcast S5000x32 (Scalar.ofBits .f32 0x00000000#32))) bitsLt_bf16_f32)
        (truncf .bf16 v9 bitsLt_bf16_f32) (constant S5000x1 .f32 0x00000000#32) (ix2 p q)
      = ∑ k : Fin 32, max (v0 (ix2 p k) + v2 (ix2 0 k)) 0 * v9 (ix2 k q) := by
  simp only [matmul]
  rw [Ideal.matmul_constant_zero_apply, ← Equiv.sum_comp (ValueIdx.contrEquiv1 dot_S5000x32_S32x1_S5000x1_1_0_0_1_n_n 32 rfl rfl).symm]
  refine Finset.sum_congr rfl fun k _ => ?_
  have hk := ValueIdx.contrEquiv1_symm_val dot_S5000x32_S32x1_S5000x1_1_0_0_1_n_n 32 rfl rfl k
  have el : dot_S5000x32_S32x1_S5000x1_1_0_0_1_n_n.lhsIdx (ix2 p q) ((ValueIdx.contrEquiv1 dot_S5000x32_S32x1_S5000x1_1_0_0_1_n_n 32 rfl rfl).symm k) = ix2 p k := funext fun a => Fin.ext (by
    match a with
    | ⟨0, _⟩ => exact lhs_0 _ _
    | ⟨1, _⟩ => exact (lhs_1 _ _).trans hk)
  have er : dot_S5000x32_S32x1_S5000x1_1_0_0_1_n_n.rhsIdx (ix2 p q) ((ValueIdx.contrEquiv1 dot_S5000x32_S32x1_S5000x1_1_0_0_1_n_n 32 rfl rfl).symm k) = ix2 k q := funext fun a => Fin.ext (by
    match a with
    | ⟨0, _⟩ => exact (rhs_0 _ _).trans hk
    | ⟨1, _⟩ => exact rhs_1 _ _)
  rw [el, er]
  show max (v0 (ix2 p k) + broadcastTo S5000x32 v2 broadcasts_S1x32_S5000x32 (ix2 p k)) (Ideal.ofBits .f32 0x00000000#32) * v9 (ix2 k q) = _
  rw [bias_apply, Ideal.ofBits_zero_f32]

/-- Entry (p, q) of the block the body stores: the logistic function of the product plus the output bias. -/
theorem pay_apply (v0 : Vec Ideal S5000x32 .f32) (v2 : Vec Ideal S1x32 .f32) (v9 : Vec Ideal S32x1 .f32) (v12 : Vec Ideal S1x1 .f32) (p : Fin 5000) (q : Fin 1) :
    k2_pay1 (F := Ideal) v0 v2 v9 v12 (ix2 p q)
      = Ideal.logistic ((∑ k : Fin 32, max (v0 (ix2 p k) + v2 (ix2 0 k)) 0 * v9 (ix2 k q)) + v12 (ix2 0 q)) := by
  unfold k2_pay1
  rw [shapeCast_self, shapeCast_self, shapeCast_self]
  show Ideal.logistic (matmul (F := Ideal) dot_S5000x32_S32x1_S5000x1_1_0_0_1_n_n none
        (truncf .bf16 (maximumf (addf v0 (broadcastTo S5000x32 v2 broadcasts_S1x32_S5000x32)) (broadcast S5000x32 (Scalar.ofBits .f32 0x00000000#32))) bitsLt_bf16_f32)
        (truncf .bf16 v9 bitsLt_bf16_f32) (constant S5000x1 .f32 0x00000000#32) (ix2 p q)
      + broadcastTo S5000x1 v12 broadcasts_S1x1_S5000x1 (ix2 p q)) = _
  rw [prod_apply, obias_apply]

/-! ## The blocks read through their windows -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the feature and the result windows move down the rows with the point, the
    others stay. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Row `p` of point `t`'s block is row `5000·t + p` of the array. -/
abbrev rowAt (t : Fin cfg2.N) (p : Fin 5000) : Fin 150000 :=
  ⟨t.val * 5000 + p.val, by have ht : t.val < 30 := t.isLt; have hp := p.isLt; omega⟩

/-- The bias row as a vector along its 32 entries. -/
abbrev biasOf (b : FVec Ideal ⟨2, ![1, 32]⟩ .f32) : FVec Ideal ⟨1, ![32]⟩ .f32 := fun k => b (ix2 0 ⟨(k 0).val, (k 0).isLt⟩)
/-- The output bias as a vector along its one entry. -/
abbrev obiasOf (b : FVec Ideal ⟨2, ![1, 1]⟩ .f32) : FVec Ideal ⟨1, ![1]⟩ .f32 := fun k => b (ix2 0 ⟨(k 0).val, (k 0).isLt⟩)

theorem ablk_apply (c : Dev nD) (t : Fin cfg2.N) (p : Fin 5000) (k : Fin 32) :
    (iblk2 V c 0 t : Vec Ideal S5000x32 .f32) (ix2 p k) = V c main_v58 (ix2 (rowAt t p) k) := by
  obtain ⟨e0, e1, -⟩ := idx_facts t
  show V c main_v58 (((cfg2.win 0).blk t).view.emb (ix2 p k)) = _
  refine congrArg _ (funext fun a => Fin.ext ?_)
  match a with
  | ⟨0, _⟩ => show win2_0.index t (0 : Fin 2) * 5000 + 1 * p.val = t.val * 5000 + p.val; omega
  | ⟨1, _⟩ => show win2_0.index t (1 : Fin 2) * 32 + 1 * k.val = k.val; omega

theorem bblk_apply (c : Dev nD) (t : Fin cfg2.N) (k : Fin 32) :
    (iblk2 V c 1 t : Vec Ideal S1x32 .f32) (ix2 0 k) = V c main_v59 (ix2 0 k) := by
  obtain ⟨-, -, e2, e3, -⟩ := idx_facts t
  show V c main_v59 (((cfg2.win 1).blk t).view.emb (ix2 0 k)) = _
  refine congrArg _ (funext fun a => Fin.ext ?_)
  match a with
  | ⟨0, _⟩ => show win2_1.index t (0 : Fin 2) * 1 + 1 * 0 = 0; omega
  | ⟨1, _⟩ => show win2_1.index t (1 : Fin 2) * 32 + 1 * k.val = k.val; omega

theorem wblk_apply (c : Dev nD) (t : Fin cfg2.N) (k : Fin 32) (q : Fin 1) :
    (iblk2 V c 2 t : Vec Ideal S32x1 .f32) (ix2 k q) = V c main_arg6 (ix2 k q) := by
  obtain ⟨-, -, -, -, e4, e5, -⟩ := idx_facts t
  show V c main_arg6 (((cfg2.win 2).blk t).view.emb (ix2 k q)) = _
  refine congrArg _ (funext fun a => Fin.ext ?_)
  match a with
  | ⟨0, _⟩ => show win2_2.index t (0 : Fin 2) * 32 + 1 * k.val = k.val; omega
  | ⟨1, _⟩ => show win2_2.index t (1 : Fin 2) * 1 + 1 * q.val = q.val; omega

theorem oblk_apply (c : Dev nD) (t : Fin cfg2.N) (q : Fin 1) :
    (iblk2 V c 3 t : Vec Ideal S1x1 .f32) (ix2 0 q) = V c main_v60 (ix2 0 q) := by
  obtain ⟨-, -, -, -, -, -, e6, e7, -⟩ := idx_facts t
  show V c main_v60 (((cfg2.win 3).blk t).view.emb (ix2 0 q)) = _
  refine congrArg _ (funext fun a => Fin.ext ?_)
  match a with
  | ⟨0, _⟩ => show win2_3.index t (0 : Fin 2) * 1 + 1 * 0 = 0; omega
  | ⟨1, _⟩ => show win2_3.index t (1 : Fin 2) * 1 + 1 * q.val = q.val; omega

/-- What the body stores at point `t`, entry by entry: rows 5000·t … of the whole read-out. -/
theorem block_eq (c : Dev nD) (t : Fin cfg2.N) :
    k2_pay1 (F := Ideal) (iblk2 V c 0 t) (iblk2 V c 1 t) (iblk2 V c 2 t) (iblk2 V c 3 t)
      = fun y : S5000x1.Idx => head (V c main_v58) (biasOf (V c main_v59)) (V c main_arg6) (obiasOf (V c main_v60)) (ix2 (rowAt t ⟨(y 0).val, (y 0).isLt⟩) (⟨(y 1).val, (y 1).isLt⟩ : Fin 1)) := by
  funext y
  obtain ⟨p, q, rfl⟩ : ∃ (p : Fin 5000) (q : Fin 1), y = ix2 p q := ⟨y 0, y 1, eq_ix2 y⟩
  refine (pay_apply (iblk2 V c 0 t) (iblk2 V c 1 t) (iblk2 V c 2 t) (iblk2 V c 3 t) p q).trans ?_
  unfold head Gcn.hidden
  rw [oblk_apply V c t q]
  refine congrArg Ideal.logistic (congrArg₂ (· + ·) (Finset.sum_congr rfl fun k _ => ?_) rfl)
  rw [ablk_apply V c t p k, bblk_apply V c t k, wblk_apply V c t k q]

/-- WHAT POINT `t` WRITES BACK is block `t` of the whole read-out of the arrays as the stage finds them. -/
theorem flushed_eq (c : Dev nD) (t : Fin cfg2.N) :
    (dat2 V c).flushed 4 t = ((cfg2.win 4).blk t).view.read (Elt Ideal) (head (V c main_v58) (biasOf (V c main_v59)) (V c main_arg6) (obiasOf (V c main_v60))) := by
  show (cfg2.win 4).cut (grid2.coords t) ((dat2 V c).after 4 t) = _
  rw [after2_4]
  unfold out2_4
  rw [View.canon_unit_zero hz]
  simp only [View.ld_unit_zero (S := S5000x32) hz, View.ld_unit_zero (S := S1x32) hz, View.ld_unit_zero (S := S32x1) hz, View.ld_unit_zero (S := S1x1) hz]
  rw [block_eq V c t]
  obtain ⟨-, -, -, -, -, -, -, -, e8, e9⟩ := idx_facts t
  funext j
  show head (V c main_v58) (biasOf (V c main_v59)) (V c main_arg6) (obiasOf (V c main_v60)) (ix2 (rowAt t ⟨(j 0).val, (j 0).isLt⟩) (⟨(j 1).val, (j 1).isLt⟩ : Fin 1))
    = head (V c main_v58) (biasOf (V c main_v59)) (V c main_arg6) (obiasOf (V c main_v60)) (((cfg2.win 4).blk t).view.emb j)
  refine congrArg _ (funext fun a => Fin.ext ?_)
  match a with
  | ⟨0, _⟩ => show t.val * 5000 + (j 0).val = win2_4.index t (0 : Fin 2) * 5000 + 1 * (j 0).val; omega
  | ⟨1, _⟩ => show (j 1).val = win2_4.index t (1 : Fin 2) * 1 + 1 * (j 1).val; omega

/-! ## The row blocks tile the array -/

theorem mem_blk (t : Fin cfg2.N) (i : S150000x1.Idx) :
    i ∈ ((cfg2.win 4).blk t).view.set ↔ ∀ a : Fin 2, win2_4.index t a * S5000x1.size a ≤ (i a).val ∧ (i a).val < win2_4.index t a * S5000x1.size a + S5000x1.size a := by
  show i ∈ ((View.whole main_v61).slice (win2_4.rect t)).set ↔ _
  rw [View.set_slice_whole, Rect.mem_set_unit]
  exact Iff.rfl

/-- Row `r` lies in the block of point `r / 5000`. -/
theorem cover (i : S150000x1.Idx) : ∃ t : Fin cfg2.N, (cfg2.win 4).flush t = true ∧ i ∈ ((cfg2.win 4).blk t).view.set := by
  have hi0 : (i 0).val < 150000 := (i 0).isLt
  have hi1 : (i 1).val < 1 := (i 1).isLt
  have ht : (i 0).val / 5000 < 30 := by omega
  obtain ⟨-, -, -, -, -, -, -, -, e8, e9⟩ := idx_facts ⟨(i 0).val / 5000, ht⟩
  refine ⟨⟨(i 0).val / 5000, ht⟩, flush2_4 _, ?_⟩
  rw [mem_blk]
  intro a
  match a with
  | ⟨0, _⟩ =>
    show win2_4.index ⟨(i 0).val / 5000, ht⟩ (0 : Fin 2) * 5000 ≤ (i 0).val ∧ (i 0).val < win2_4.index ⟨(i 0).val / 5000, ht⟩ (0 : Fin 2) * 5000 + 5000
    have e : win2_4.index ⟨(i 0).val / 5000, ht⟩ (0 : Fin 2) = (i 0).val / 5000 := e8
    omega
  | ⟨1, _⟩ =>
    show win2_4.index ⟨(i 0).val / 5000, ht⟩ (1 : Fin 2) * 1 ≤ (i 1).val ∧ (i 1).val < win2_4.index ⟨(i 0).val / 5000, ht⟩ (1 : Fin 2) * 1 + 1
    omega

/-- THE RESULT ARRAY of the stage: the whole read-out of the arrays it was entered with. -/
theorem final (c : Dev nD) : (dat2 V c).arrAt 4 cfg2.N = head (V c main_v58) (biasOf (V c main_v59)) (V c main_arg6) (obiasOf (V c main_v60)) :=
  (dat2 V c).arrAt_eq_of_cover 4 (head (V c main_v58) (biasOf (V c main_v59)) (V c main_arg6) (obiasOf (V c main_v60))) (fun t _ => flushed_eq V c t) (cover)

end Cert.KernelIdeal.Stage2

end
-- ==== Proof.Agg.lean ====
/-
  The sparse aggregation of a graph-convolution layer as ONE function: from the per-node rows `h`, the edge sources `s`, the
  edge destinations `d` and the per-edge weights `n`,

      agg h s d n (v, j) = Σ over edges e with d(e) = v of  h(s(e), j) · n(e),

  written with the plain program's own host operations (a negative source index is first moved up by the number of
  nodes, the rows are gathered by source, scaled by the edge weight, and added into a zero array at the destination).
  Both programs apply exactly these operations, so nothing here is ever opened: the two sides are compared by the
  values going in.
-/
import proofs.«119091_j25228637897420_1_alg».proof.Proof.Gen.ReferenceIdeal

noncomputable section

namespace Cert.ReferenceIdeal.Sparse

open Cert.ReferenceIdeal Cert.ReferenceIdeal.Gen Idealize.ShloMosaic

variable {F : FTy → Type} [FloatOps F]

/-- The edge sources as gather indices: a negative index counts from the end. -/
def wrap (s : (⟨S2550000, .i32⟩ : BufTy).Contents (Elt F)) : (⟨S2550000x1, .i32⟩ : BufTy).Contents (Elt F) :=
  broadcastInDim S2550000x1 ![0] bcast_S2550000_S2550000x1_0
    (select (cmpi .slt s (broadcastInDim S2550000 ![] bcast_S_S2550000 (constantI S_ 32 0#32)))
      (addi s (broadcastInDim S2550000 ![] bcast_S_S2550000 (constantI S_ 32 150000#32))) s)

/-- Gather the rows by source, scale each by its edge weight, add them up by destination. -/
def agg (h : (⟨S150000x32, .f32⟩ : BufTy).Contents (Elt F)) (s d : (⟨S2550000, .i32⟩ : BufTy).Contents (Elt F))
    (n : (⟨S2550000, .f32⟩ : BufTy).Contents (Elt F)) : (⟨S150000x32, .f32⟩ : BufTy).Contents (Elt F) :=
  Host.scatterAdd scatter_S150000x32_S2550000x1_S2550000x32_1_0_0_1
    (broadcastInDim S150000x32 ![] bcast_S_S150000x32 (constant S_ .f32 0x00000000#32))
    (broadcastInDim S2550000x1 ![0] bcast_S2550000_S2550000x1_0 d)
    (mulf (Host.gather gather_S150000x32_S2550000x1_S2550000x32_1_0_n_n_0_1_132 h (wrap s))
      (broadcastInDim S2550000x32 ![0, 1] bcast_S2550000x1_S2550000x32_0_1
        (broadcastInDim S2550000x1 ![0] bcast_S2550000_S2550000x1_0 n)))

/-! ## The edge lists and the symmetric normalisation, as functions of the edge array -/

/-- The edge sources followed by every node once (the self-loops). -/
def srcOf (e : (⟨S2x2400000, .i32⟩ : BufTy).Contents (Elt F)) : (⟨S2550000, .i32⟩ : BufTy).Contents (Elt F) :=
  concatenate S2550000 0 [⟨S2400000, shapeCast _ (extractStridedSlice S1x2400000 ![0, 0] e slices_S2x2400000_S1x2400000_0_0) shapeCasts_S1x2400000_S2400000⟩, ⟨S150000, iotaInDim S150000 32 0⟩] concatenates_S2400000_S150000_S2550000_d0

/-- The edge destinations followed by every node once (the self-loops). -/
def dstOf (e : (⟨S2x2400000, .i32⟩ : BufTy).Contents (Elt F)) : (⟨S2550000, .i32⟩ : BufTy).Contents (Elt F) :=
  concatenate S2550000 0 [⟨S2400000, shapeCast _ (extractStridedSlice S1x2400000 ![1, 0] e slices_S2x2400000_S1x2400000_1_0) shapeCasts_S1x2400000_S2400000⟩, ⟨S150000, iotaInDim S150000 32 0⟩] concatenates_S2400000_S150000_S2550000_d0

/-- The in-degree of every node, self-loop included: ones added up by destination. -/
def degOf (d : (⟨S2550000, .i32⟩ : BufTy).Contents (Elt F)) : (⟨S150000, .f32⟩ : BufTy).Contents (Elt F) :=
  Host.scatterAdd scatter_S150000_S2550000x1_S2550000_n_0_0_1
    (broadcastInDim S150000 ![] bcast_S_S150000 (constant S_ .f32 0x00000000#32))
    (broadcastInDim S2550000x1 ![0] bcast_S2550000_S2550000x1_0 d)
    (broadcastInDim S2550000 ![] bcast_S_S2550000 (constant S_ .f32 0x3F800000#32))

/-- One over the square root of the degree where the degree is positive, zero elsewhere. -/
def dinvOf (g : (⟨S150000, .f32⟩ : BufTy).Contents (Elt F)) : (⟨S150000, .f32⟩ : BufTy).Contents (Elt F) :=
  select (cmpf (F := F) .ogt g (broadcastInDim S150000 ![] bcast_S_S150000 (constant S_ .f32 0x00000000#32)))
    (Host.rsqrt g)
    (broadcastInDim S150000 ![] bcast_S_S150000 (id (constant S_ .f32 0x00000000#32)))

/-- A per-node vector read at each edge's end. -/
def atEnds (v : (⟨S150000, .f32⟩ : BufTy).Contents (Elt F)) (s : (⟨S2550000, .i32⟩ : BufTy).Contents (Elt F)) :
    (⟨S2550000, .f32⟩ : BufTy).Contents (Elt F) :=
  Host.gather gather_S150000_S2550000x1_S2550000_n_0_n_n_0_1_1 v (wrap s)

/-- The weight of an edge from a per-node factor: the product of the factor at its two ends. -/
def normFrom (v : (⟨S150000, .f32⟩ : BufTy).Contents (Elt F)) (s d : (⟨S2550000, .i32⟩ : BufTy).Contents (Elt F)) :
    (⟨S2550000, .f32⟩ : BufTy).Contents (Elt F) :=
  mulf (atEnds v s) (atEnds v d)

/-- The weight of an edge: the product of the two ends' inverse square-root degrees. -/
def normOf (s d : (⟨S2550000, .i32⟩ : BufTy).Contents (Elt F)) : (⟨S2550000, .f32⟩ : BufTy).Contents (Elt F) :=
  normFrom (dinvOf (degOf d)) s d

end Cert.ReferenceIdeal.Sparse

end
-- ==== Proof.KernelValue.lean ====
/-
  What the tiled program leaves in its result buffer, as ONE term of the argument arrays. The run's buffer contents are a
  fold through the program: a stretch of host operations applies them, a tiled stage replaces its result array by the
  stage's whole-array function of what it found. Read back from the end:

      result = head (agg (layer (agg (lin x W₁) s d n) b₁ W₂) s d n) b₂ Wₚ bₚ ,
      s = srcOf e,  d = dstOf e,  n = normOf s d,

  with `x, e, W₁, b₁, W₂, b₂, Wₚ, bₚ` the eight arguments as launched. The host stretches are carried as the opaque
  functions of Proof/Agg.lean; the two bias reshapes ([32] to [1,32], [1] to [1,1]) are read back along their entries.
-/
import proofs.«119091_j25228637897420_1_alg».proof.Proof.Gen.KernelIdeal.Frame
import proofs.«119091_j25228637897420_1_alg».proof.Proof.Stage0
import proofs.«119091_j25228637897420_1_alg».proof.Proof.Stage1
import proofs.«119091_j25228637897420_1_alg».proof.Proof.Stage2
import proofs.«119091_j25228637897420_1_alg».proof.Proof.Agg
import Idealize.ShloMosaic.Lib.StableHlo.Run
import Idealize.ShloMosaic.Lib.Pipeline.Value

set_option maxRecDepth 16384

noncomputable section

namespace Cert.KernelIdeal.Whole

open Cert.KernelIdeal Cert.KernelIdeal.Gen Cert.Gcn Cert.ReferenceIdeal.Sparse
open Idealize.ShloMosaic Idealize.ShloMosaic.TcCoe Idealize.ShloMosaic.ValueIdx Idealize.SL.Sem

/-! ## The host stretches, at any float family -/

section Host

variable {F : FTy → Type} [FloatOps F]
variable (m : (ℓ : Loc nD τ sig) → Buf (Elt F) ℓ) (ρ : Dev nD → PrngReg) (c : Dev nD)

/-- The contents at the first stage's entry, three stretches after the launch. -/
theorem W3_unfold (b : DevRef τ sig) :
    W3 m ρ c b = StableHlo.after hostOps0_2 (StableHlo.after hostOps0_1 (StableHlo.after hostOps0 (W0 m ρ c))) b := rfl

theorem W3_arg0 : W3 m ρ c (Proc.devRef .tc main_arg0) = m ((c : Thread nD τ).loc main_arg0) := by
  rw [W3_unfold]; after_results <;> rfl
theorem W3_arg2 : W3 m ρ c (Proc.devRef .tc main_arg2) = m ((c : Thread nD τ).loc main_arg2) := by
  rw [W3_unfold]; after_results <;> rfl
theorem W3_arg3 : W3 m ρ c (Proc.devRef .tc main_arg3) = m ((c : Thread nD τ).loc main_arg3) := by
  rw [W3_unfold]; after_results <;> rfl
theorem W3_arg4 : W3 m ρ c (Proc.devRef .tc main_arg4) = m ((c : Thread nD τ).loc main_arg4) := by
  rw [W3_unfold]; after_results <;> rfl
theorem W3_arg5 : W3 m ρ c (Proc.devRef .tc main_arg5) = m ((c : Thread nD τ).loc main_arg5) := by
  rw [W3_unfold]; after_results <;> rfl
theorem W3_arg6 : W3 m ρ c (Proc.devRef .tc main_arg6) = m ((c : Thread nD τ).loc main_arg6) := by
  rw [W3_unfold]; after_results <;> rfl
theorem W3_arg7 : W3 m ρ c (Proc.devRef .tc main_arg7) = m ((c : Thread nD τ).loc main_arg7) := by
  rw [W3_unfold]; after_results <;> rfl

/-- The edge sources, destinations and weights the first stretches compute from the edge array. -/
theorem W3_src : W3 m ρ c (Proc.devRef .tc main_v3) = srcOf (F := F) (m ((c : Thread nD τ).loc main_arg1)) := by
  rw [W3_unfold]; after_results <;> rfl
theorem W3_dst : W3 m ρ c (Proc.devRef .tc main_v6) = dstOf (F := F) (m ((c : Thread nD τ).loc main_arg1)) := by
  rw [W3_unfold]; after_results <;> rfl

/-- After the first stretch: the degrees by destination, their comparison with zero and their inverse square roots. -/
theorem W1_dst : W1 m ρ c (Proc.devRef .tc main_v6) = dstOf (F := F) (m ((c : Thread nD τ).loc main_arg1)) := by
  show StableHlo.after hostOps0 (W0 m ρ c) (Proc.devRef .tc main_v6) = _
  after_results <;> rfl
theorem W1_src : W1 m ρ c (Proc.devRef .tc main_v3) = srcOf (F := F) (m ((c : Thread nD τ).loc main_arg1)) := by
  show StableHlo.after hostOps0 (W0 m ρ c) (Proc.devRef .tc main_v3) = _
  after_results <;> rfl
theorem W1_pos : W1 m ρ c (Proc.devRef .tc main_v12)
    = cmpf (F := F) .ogt (degOf (dstOf (m ((c : Thread nD τ).loc main_arg1)))) (broadcastInDim S150000 ![] bcast_S_S150000 (constant S_ .f32 0x00000000#32)) := by
  show StableHlo.after hostOps0 (W0 m ρ c) (Proc.devRef .tc main_v12) = _
  after_results <;> rfl
theorem W1_rsqrt : W1 m ρ c (Proc.devRef .tc main_v13) = Host.rsqrt (degOf (F := F) (dstOf (m ((c : Thread nD τ).loc main_arg1)))) := by
  show StableHlo.after hostOps0 (W0 m ρ c) (Proc.devRef .tc main_v13) = _
  after_results <;> rfl
theorem W1_zero : W1 m ρ c (Proc.devRef .tc main_cst_2) = constant (F := F) S_ .f32 0x00000000#32 := by
  show StableHlo.after hostOps0 (W0 m ρ c) (Proc.devRef .tc main_cst_2) = _
  after_results <;> rfl

/-- The second stretch (the outlined `where`) from any contents `U`: a selection between two of the buffers it finds and a
    spread constant. -/
theorem where_stretch (U : Valuation τ sig (Elt F)) :
    StableHlo.after hostOps0_1 U (Proc.devRef .tc main_v14)
      = select (U (Proc.devRef .tc main_v12)) (U (Proc.devRef .tc main_v13))
          (broadcastInDim S150000 ![] bcast_S_S150000 (id (U (Proc.devRef .tc main_cst_2)))) := by
  after_results <;> rfl
theorem where_keep_src (U : Valuation τ sig (Elt F)) :
    StableHlo.after hostOps0_1 U (Proc.devRef .tc main_v3) = U (Proc.devRef .tc main_v3) := by
  after_results <;> rfl
theorem where_keep_dst (U : Valuation τ sig (Elt F)) :
    StableHlo.after hostOps0_1 U (Proc.devRef .tc main_v6) = U (Proc.devRef .tc main_v6) := by
  after_results <;> rfl

/-- The third stretch from any contents `U`: the edge weights from the per-node factor and the two edge lists it finds. -/
theorem norm_stretch (U : Valuation τ sig (Elt F)) :
    StableHlo.after hostOps0_2 U (Proc.devRef .tc main_v29)
      = normFrom (U (Proc.devRef .tc main_v14)) (U (Proc.devRef .tc main_v3)) (U (Proc.devRef .tc main_v6)) := by
  after_results_simp <;> rfl

/-- After the second stretch: the inverse square-root degrees, zero where the degree is not positive. -/
theorem W2_dinv : W2 m ρ c (Proc.devRef .tc main_v14) = dinvOf (F := F) (degOf (dstOf (m ((c : Thread nD τ).loc main_arg1)))) := by
  refine (where_stretch (W1 m ρ c)).trans ?_
  rw [W1_pos, W1_rsqrt, W1_zero]
  rfl
theorem W2_src : W2 m ρ c (Proc.devRef .tc main_v3) = srcOf (F := F) (m ((c : Thread nD τ).loc main_arg1)) :=
  (where_keep_src (W1 m ρ c)).trans (W1_src m ρ c)
theorem W2_dst : W2 m ρ c (Proc.devRef .tc main_v6) = dstOf (F := F) (m ((c : Thread nD τ).loc main_arg1)) :=
  (where_keep_dst (W1 m ρ c)).trans (W1_dst m ρ c)

/-- After the third stretch: the edge weights. -/
theorem W3_norm : W3 m ρ c (Proc.devRef .tc main_v29)
    = normOf (F := F) (srcOf (m ((c : Thread nD τ).loc main_arg1))) (dstOf (m ((c : Thread nD τ).loc main_arg1))) := by
  refine (norm_stretch (W2 m ρ c)).trans ?_
  rw [W2_dinv, W2_src, W2_dst]
  rfl

/-! ### The stretches between the stages, from any contents `U` -/

/-- The stretch after the first stage: the aggregation of the stage's result, and the first bias as a row. -/
theorem agg_stretch1 (U : Valuation τ sig (Elt F)) :
    StableHlo.after hostOps1 U (Proc.devRef .tc main_v43)
      = agg (U (Proc.devRef .tc main_v30)) (U (Proc.devRef .tc main_v3)) (U (Proc.devRef .tc main_v6)) (U (Proc.devRef .tc main_v29)) := by
  after_results_simp <;> rfl
theorem bias_stretch1 (U : Valuation τ sig (Elt F)) :
    StableHlo.after hostOps1 U (Proc.devRef .tc main_v44) = shapeCast S1x32 (U (Proc.devRef .tc main_arg3)) shapeCasts_S32_S1x32 := by
  after_results <;> rfl
theorem keep1_src (U : Valuation τ sig (Elt F)) : StableHlo.after hostOps1 U (Proc.devRef .tc main_v3) = U (Proc.devRef .tc main_v3) := by
  after_results <;> rfl
theorem keep1_dst (U : Valuation τ sig (Elt F)) : StableHlo.after hostOps1 U (Proc.devRef .tc main_v6) = U (Proc.devRef .tc main_v6) := by
  after_results <;> rfl
theorem keep1_norm (U : Valuation τ sig (Elt F)) : StableHlo.after hostOps1 U (Proc.devRef .tc main_v29) = U (Proc.devRef .tc main_v29) := by
  after_results <;> rfl
theorem keep1_arg4 (U : Valuation τ sig (Elt F)) : StableHlo.after hostOps1 U (Proc.devRef .tc main_arg4) = U (Proc.devRef .tc main_arg4) := by
  after_results <;> rfl
theorem keep1_arg5 (U : Valuation τ sig (Elt F)) : StableHlo.after hostOps1 U (Proc.devRef .tc main_arg5) = U (Proc.devRef .tc main_arg5) := by
  after_results <;> rfl
theorem keep1_arg6 (U : Valuation τ sig (Elt F)) : StableHlo.after hostOps1 U (Proc.devRef .tc main_arg6) = U (Proc.devRef .tc main_arg6) := by
  after_results <;> rfl
theorem keep1_arg7 (U : Valuation τ sig (Elt F)) : StableHlo.after hostOps1 U (Proc.devRef .tc main_arg7) = U (Proc.devRef .tc main_arg7) := by
  after_results <;> rfl

/-- The stretch after the second stage: the aggregation of that stage's result, the second bias as a row and the output
    bias as a 1 × 1 array. -/
theorem agg_stretch2 (U : Valuation τ sig (Elt F)) :
    StableHlo.after hostOps2 U (Proc.devRef .tc main_v58)
      = agg (U (Proc.devRef .tc main_v45)) (U (Proc.devRef .tc main_v3)) (U (Proc.devRef .tc main_v6)) (U (Proc.devRef .tc main_v29)) := by
  after_results_simp <;> rfl
theorem bias_stretch2 (U : Valuation τ sig (Elt F)) :
    StableHlo.after hostOps2 U (Proc.devRef .tc main_v59) = shapeCast S1x32 (U (Proc.devRef .tc main_arg5)) shapeCasts_S32_S1x32 := by
  after_results <;> rfl
theorem obias_stretch2 (U : Valuation τ sig (Elt F)) :
    StableHlo.after hostOps2 U (Proc.devRef .tc main_v60) = shapeCast S1x1 (U (Proc.devRef .tc main_arg7)) shapeCasts_S1_S1x1 := by
  after_results <;> rfl
theorem keep2_arg6 (U : Valuation τ sig (Elt F)) : StableHlo.after hostOps2 U (Proc.devRef .tc main_arg6) = U (Proc.devRef .tc main_arg6) := by
  after_results <;> rfl

/-! ### What is carried past the first stage: buffers that are none of its arrays -/

theorem W4_src : W4 m ρ c (Proc.devRef .tc main_v3) = srcOf (F := F) (m ((c : Thread nD τ).loc main_arg1)) :=
  (W4_of_ne m ρ c main_v3 (by decide)).trans (W3_src m ρ c)
theorem W4_dst : W4 m ρ c (Proc.devRef .tc main_v6) = dstOf (F := F) (m ((c : Thread nD τ).loc main_arg1)) :=
  (W4_of_ne m ρ c main_v6 (by decide)).trans (W3_dst m ρ c)
theorem W4_norm : W4 m ρ c (Proc.devRef .tc main_v29)
    = normOf (F := F) (srcOf (m ((c : Thread nD τ).loc main_arg1))) (dstOf (m ((c : Thread nD τ).loc main_arg1))) :=
  (W4_of_ne m ρ c main_v29 (by decide)).trans (W3_norm m ρ c)
theorem W4_arg3 : W4 m ρ c (Proc.devRef .tc main_arg3) = m ((c : Thread nD τ).loc main_arg3) :=
  (W4_of_ne m ρ c main_arg3 (by decide)).trans (W3_arg3 m ρ c)
theorem W4_arg4 : W4 m ρ c (Proc.devRef .tc main_arg4) = m ((c : Thread nD τ).loc main_arg4) :=
  (W4_of_ne m ρ c main_arg4 (by decide)).trans (W3_arg4 m ρ c)
theorem W4_arg5 : W4 m ρ c (Proc.devRef .tc main_arg5) = m ((c : Thread nD τ).loc main_arg5) :=
  (W4_of_ne m ρ c main_arg5 (by decide)).trans (W3_arg5 m ρ c)
theorem W4_arg6 : W4 m ρ c (Proc.devRef .tc main_arg6) = m ((c : Thread nD τ).loc main_arg6) :=
  (W4_of_ne m ρ c main_arg6 (by decide)).trans (W3_arg6 m ρ c)
theorem W4_arg7 : W4 m ρ c (Proc.devRef .tc main_arg7) = m ((c : Thread nD τ).loc main_arg7) :=
  (W4_of_ne m ρ c main_arg7 (by decide)).trans (W3_arg7 m ρ c)

/-! ### … past the stretch after it -/

theorem W5_src : W5 m ρ c (Proc.devRef .tc main_v3) = srcOf (F := F) (m ((c : Thread nD τ).loc main_arg1)) :=
  (keep1_src (W4 m ρ c)).trans (W4_src m ρ c)
theorem W5_dst : W5 m ρ c (Proc.devRef .tc main_v6) = dstOf (F := F) (m ((c : Thread nD τ).loc main_arg1)) :=
  (keep1_dst (W4 m ρ c)).trans (W4_dst m ρ c)
theorem W5_norm : W5 m ρ c (Proc.devRef .tc main_v29)
    = normOf (F := F) (srcOf (m ((c : Thread nD τ).loc main_arg1))) (dstOf (m ((c : Thread nD τ).loc main_arg1))) :=
  (keep1_norm (W4 m ρ c)).trans (W4_norm m ρ c)
theorem W5_arg4 : W5 m ρ c (Proc.devRef .tc main_arg4) = m ((c : Thread nD τ).loc main_arg4) :=
  (keep1_arg4 (W4 m ρ c)).trans (W4_arg4 m ρ c)
theorem W5_arg5 : W5 m ρ c (Proc.devRef .tc main_arg5) = m ((c : Thread nD τ).loc main_arg5) :=
  (keep1_arg5 (W4 m ρ c)).trans (W4_arg5 m ρ c)
theorem W5_arg6 : W5 m ρ c (Proc.devRef .tc main_arg6) = m ((c : Thread nD τ).loc main_arg6) :=
  (keep1_arg6 (W4 m ρ c)).trans (W4_arg6 m ρ c)
theorem W5_arg7 : W5 m ρ c (Proc.devRef .tc main_arg7) = m ((c : Thread nD τ).loc main_arg7) :=
  (keep1_arg7 (W4 m ρ c)).trans (W4_arg7 m ρ c)

/-! ### … past the second stage -/

theorem W6_src : W6 m ρ c (Proc.devRef .tc main_v3) = srcOf (F := F) (m ((c : Thread nD τ).loc main_arg1)) :=
  (W6_of_ne m ρ c main_v3 (by decide)).trans (W5_src m ρ c)
theorem W6_dst : W6 m ρ c (Proc.devRef .tc main_v6) = dstOf (F := F) (m ((c : Thread nD τ).loc main_arg1)) :=
  (W6_of_ne m ρ c main_v6 (by decide)).trans (W5_dst m ρ c)
theorem W6_norm : W6 m ρ c (Proc.devRef .tc main_v29)
    = normOf (F := F) (srcOf (m ((c : Thread nD τ).loc main_arg1))) (dstOf (m ((c : Thread nD τ).loc main_arg1))) :=
  (W6_of_ne m ρ c main_v29 (by decide)).trans (W5_norm m ρ c)
theorem W6_arg5 : W6 m ρ c (Proc.devRef .tc main_arg5) = m ((c : Thread nD τ).loc main_arg5) :=
  (W6_of_ne m ρ c main_arg5 (by decide)).trans (W5_arg5 m ρ c)
theorem W6_arg6 : W6 m ρ c (Proc.devRef .tc main_arg6) = m ((c : Thread nD τ).loc main_arg6) :=
  (W6_of_ne m ρ c main_arg6 (by decide)).trans (W5_arg6 m ρ c)
theorem W6_arg7 : W6 m ρ c (Proc.devRef .tc main_arg7) = m ((c : Thread nD τ).loc main_arg7) :=
  (W6_of_ne m ρ c main_arg7 (by decide)).trans (W5_arg7 m ρ c)

/-! ### … and past the last stretch -/

theorem W7_arg6 : W7 m ρ c (Proc.devRef .tc main_arg6) = m ((c : Thread nD τ).loc main_arg6) :=
  (keep2_arg6 (W6 m ρ c)).trans (W6_arg6 m ρ c)

end Host

/-! ## The three stages, over the extended reals -/

section Stages

variable (m : (ℓ : Loc nD τ sig) → Buf (Elt Ideal) ℓ) (ρ : Dev nD → PrngReg) (c : Dev nD)

/-- A vector of 32 entries reshaped to one row and read back along the row is the vector. -/
theorem bias_row (b : FVec Ideal ⟨1, ![32]⟩ .f32) (h : (⟨1, ![32]⟩ : Shape).ShapeCasts ⟨2, ![1, 32]⟩) :
    (fun k : (⟨1, ![32]⟩ : Shape).Idx => shapeCast ⟨2, ![1, 32]⟩ b h (ix2 (0 : Fin 1) (⟨(k 0).val, (k 0).isLt⟩ : Fin 32))) = b := by
  funext k
  refine (shapeCast_apply b h (ix2 (0 : Fin 1) (⟨(k 0).val, (k 0).isLt⟩ : Fin 32)) k (by
    rw [Shape.rowMajor_val_two, Shape.rowMajor_val_one]; show (k 0).val = 0 * 32 + (k 0).val; omega))

/-- The same for the one-entry output bias reshaped to a 1 × 1 array. -/
theorem obias_row (b : FVec Ideal ⟨1, ![1]⟩ .f32) (h : (⟨1, ![1]⟩ : Shape).ShapeCasts ⟨2, ![1, 1]⟩) :
    (fun k : (⟨1, ![1]⟩ : Shape).Idx => shapeCast ⟨2, ![1, 1]⟩ b h (ix2 (0 : Fin 1) (⟨(k 0).val, (k 0).isLt⟩ : Fin 1))) = b := by
  funext k
  refine (shapeCast_apply b h (ix2 (0 : Fin 1) (⟨(k 0).val, (k 0).isLt⟩ : Fin 1)) k (by
    rw [Shape.rowMajor_val_two, Shape.rowMajor_val_one]; show (k 0).val = 0 * 1 + (k 0).val; omega))

/-- The first stage's result: the node features times the first weights. -/
theorem W4_h1 : W4 m ρ c (Proc.devRef .tc main_v30)
    = lin (m ((c : Thread nD τ).loc main_arg0)) (m ((c : Thread nD τ).loc main_arg2)) := by
  refine ((W4_arr m ρ c 2).trans (Stage0.final (V3 m ρ) c)).trans ?_
  show lin (W3 m ρ c (Proc.devRef .tc main_arg0)) (W3 m ρ c (Proc.devRef .tc main_arg2)) = _
  rw [W3_arg0, W3_arg2]

/-- Its aggregation over the edges, and the first bias as a row. -/
theorem W5_a1 : W5 m ρ c (Proc.devRef .tc main_v43)
    = agg (lin (m ((c : Thread nD τ).loc main_arg0)) (m ((c : Thread nD τ).loc main_arg2)))
        (srcOf (m ((c : Thread nD τ).loc main_arg1))) (dstOf (m ((c : Thread nD τ).loc main_arg1)))
        (normOf (srcOf (m ((c : Thread nD τ).loc main_arg1))) (dstOf (m ((c : Thread nD τ).loc main_arg1)))) := by
  refine (agg_stretch1 (W4 m ρ c)).trans ?_
  rw [W4_h1, W4_src, W4_dst, W4_norm]
theorem W5_b1 : W5 m ρ c (Proc.devRef .tc main_v44) = shapeCast S1x32 (m ((c : Thread nD τ).loc main_arg3)) shapeCasts_S32_S1x32 := by
  refine (bias_stretch1 (W4 m ρ c)).trans ?_
  rw [W4_arg3]

/-- The second stage's result: the hidden units of the first layer times the second weights. -/
theorem W6_h2 : W6 m ρ c (Proc.devRef .tc main_v45)
    = layer (agg (lin (m ((c : Thread nD τ).loc main_arg0)) (m ((c : Thread nD τ).loc main_arg2)))
          (srcOf (m ((c : Thread nD τ).loc main_arg1))) (dstOf (m ((c : Thread nD τ).loc main_arg1)))
          (normOf (srcOf (m ((c : Thread nD τ).loc main_arg1))) (dstOf (m ((c : Thread nD τ).loc main_arg1)))))
        (m ((c : Thread nD τ).loc main_arg3)) (m ((c : Thread nD τ).loc main_arg4)) := by
  refine ((W6_arr m ρ c 3).trans (Stage1.final (V5 m ρ) c)).trans ?_
  show layer (W5 m ρ c (Proc.devRef .tc main_v43)) (Stage1.biasOf (W5 m ρ c (Proc.devRef .tc main_v44))) (W5 m ρ c (Proc.devRef .tc main_arg4)) = _
  rw [W5_a1, W5_b1, W5_arg4]
  exact congrArg (fun b => layer _ b _) (bias_row _ _)

/-- Its aggregation over the edges, the second bias as a row and the output bias as a 1 × 1 array. -/
theorem W7_a2 : W7 m ρ c (Proc.devRef .tc main_v58)
    = agg (layer (agg (lin (m ((c : Thread nD τ).loc main_arg0)) (m ((c : Thread nD τ).loc main_arg2)))
            (srcOf (m ((c : Thread nD τ).loc main_arg1))) (dstOf (m ((c : Thread nD τ).loc main_arg1)))
            (normOf (srcOf (m ((c : Thread nD τ).loc main_arg1))) (dstOf (m ((c : Thread nD τ).loc main_arg1)))))
          (m ((c : Thread nD τ).loc main_arg3)) (m ((c : Thread nD τ).loc main_arg4)))
        (srcOf (m ((c : Thread nD τ).loc main_arg1))) (dstOf (m ((c : Thread nD τ).loc main_arg1)))
        (normOf (srcOf (m ((c : Thread nD τ).loc main_arg1))) (dstOf (m ((c : Thread nD τ).loc main_arg1)))) := by
  refine (agg_stretch2 (W6 m ρ c)).trans ?_
  rw [W6_h2, W6_src, W6_dst, W6_norm]
theorem W7_b2 : W7 m ρ c (Proc.devRef .tc main_v59) = shapeCast S1x32 (m ((c : Thread nD τ).loc main_arg5)) shapeCasts_S32_S1x32 := by
  refine (bias_stretch2 (W6 m ρ c)).trans ?_
  rw [W6_arg5]
theorem W7_bp : W7 m ρ c (Proc.devRef .tc main_v60) = shapeCast S1x1 (m ((c : Thread nD τ).loc main_arg7)) shapeCasts_S1_S1x1 := by
  refine (obias_stretch2 (W6 m ρ c)).trans ?_
  rw [W6_arg7]

/-- THE RESULT BUFFER after the run: the read-out of the second layer's aggregation. -/
theorem result : W8 m ρ c (Proc.devRef .tc main_v61)
    = head (agg (layer (agg (lin (m ((c : Thread nD τ).loc main_arg0)) (m ((c : Thread nD τ).loc main_arg2)))
              (srcOf (m ((c : Thread nD τ).loc main_arg1))) (dstOf (m ((c : Thread nD τ).loc main_arg1)))
              (normOf (srcOf (m ((c : Thread nD τ).loc main_arg1))) (dstOf (m ((c : Thread nD τ).loc main_arg1)))))
            (m ((c : Thread nD τ).loc main_arg3)) (m ((c : Thread nD τ).loc main_arg4)))
          (srcOf (m ((c : Thread nD τ).loc main_arg1))) (dstOf (m ((c : Thread nD τ).loc main_arg1)))
          (normOf (srcOf (m ((c : Thread nD τ).loc main_arg1))) (dstOf (m ((c : Thread nD τ).loc main_arg1)))))
        (m ((c : Thread nD τ).loc main_arg5)) (m ((c : Thread nD τ).loc main_arg6)) (m ((c : Thread nD τ).loc main_arg7)) := by
  refine ((W8_arr m ρ c 4).trans (Stage2.final (V7 m ρ) c)).trans ?_
  show head (W7 m ρ c (Proc.devRef .tc main_v58)) (Stage2.biasOf (W7 m ρ c (Proc.devRef .tc main_v59))) (W7 m ρ c (Proc.devRef .tc main_arg6))
      (Stage2.obiasOf (W7 m ρ c (Proc.devRef .tc main_v60))) = _
  rw [W7_a2, W7_b2, W7_arg6, W7_bp]
  exact congrArg₂ (fun b β => head _ b _ β) (bias_row _ _) (obias_row _ _)

end Stages

end Cert.KernelIdeal.Whole

end
-- ==== Proof.RefValue.lean ====
/-
  The plain program's result, as a term of its arguments in the same three dense functions and the same sparse
  aggregation as the tiled program's:

      result = head (agg (layer (agg (lin x W₁) s d n) b₁ W₂) s d n) b₂ Wₚ bₚ ,   s = srcOf e, d = dstOf e, n = normOf s d.

  The plain program computes the edge lists and the weights once per layer; as functions of the edge array both copies are
  `srcOf`, `dstOf`, `normOf`. Each dense layer is one whole matrix product: read at an entry it is the sum over the
  contracted feature, the bias spread along the rows, the cut-off at zero entry by entry; the read-out's
  1 / (1 + e^(−t)) is the logistic function by definition.
-/
import proofs.«119091_j25228637897420_1_alg».proof.Proof.RefRead
import proofs.«119091_j25228637897420_1_alg».proof.Proof.Spec
import proofs.«119091_j25228637897420_1_alg».proof.Proof.Agg
import Idealize.ShloMosaic.Lib.IdealHost

set_option maxRecDepth 16384

noncomputable section

namespace Cert.ReferenceIdeal.Whole

open Cert.ReferenceIdeal Cert.ReferenceIdeal.Gen Cert.ReferenceIdeal.ReadP Cert.ReferenceIdeal.Sparse Cert.Gcn
open Idealize.ShloMosaic Idealize.ShloMosaic.ValueIdx

/-! ## The sparse parts, at any float family -/

section SparseParts

variable {F : FTy → Type} [FloatOps F]

theorem src_eq (e : (⟨S2x2400000, .i32⟩ : BufTy).Contents (Elt F)) : val_main_v4 (F := F) e = srcOf e := rfl
theorem dst_eq (e : (⟨S2x2400000, .i32⟩ : BufTy).Contents (Elt F)) : val_main_v7 (F := F) e = dstOf e := rfl
theorem norm_eq (e : (⟨S2x2400000, .i32⟩ : BufTy).Contents (Elt F)) : val_main_v30 (F := F) e = normOf (srcOf e) (dstOf e) := rfl
/-- The second layer's own copies of the edge lists and the weights are the same functions of the edge array. -/
theorem src_eq' (e : (⟨S2x2400000, .i32⟩ : BufTy).Contents (Elt F)) : val_main_v52 (F := F) e = srcOf e := rfl
theorem dst_eq' (e : (⟨S2x2400000, .i32⟩ : BufTy).Contents (Elt F)) : val_main_v55 (F := F) e = dstOf e := rfl
theorem norm_eq' (e : (⟨S2x2400000, .i32⟩ : BufTy).Contents (Elt F)) : val_main_v78 (F := F) e = normOf (srcOf e) (dstOf e) := rfl

/-- The first layer's aggregation is `agg` of the first projection. -/
theorem agg1_eq (x0 : (⟨S150000x2, .f32⟩ : BufTy).Contents (Elt F)) (e : (⟨S2x2400000, .i32⟩ : BufTy).Contents (Elt F))
    (x2 : (⟨S2x32, .f32⟩ : BufTy).Contents (Elt F)) :
    val_main_v43 (F := F) x0 e x2 = agg (val_main_v0 x0 x2) (srcOf e) (dstOf e) (normOf (srcOf e) (dstOf e)) := rfl

/-- The second layer's aggregation is `agg` of the second projection. -/
theorem agg2_eq (x0 : (⟨S150000x2, .f32⟩ : BufTy).Contents (Elt F)) (e : (⟨S2x2400000, .i32⟩ : BufTy).Contents (Elt F))
    (x2 : (⟨S2x32, .f32⟩ : BufTy).Contents (Elt F)) (x3 : (⟨S32, .f32⟩ : BufTy).Contents (Elt F)) (x4 : (⟨S32x32, .f32⟩ : BufTy).Contents (Elt F)) :
    val_main_v91 (F := F) x0 e x2 x3 x4 = agg (val_main_v48 x0 e x2 x3 x4) (srcOf e) (dstOf e) (normOf (srcOf e) (dstOf e)) := rfl

end SparseParts

/-! ## The dense parts, over the extended reals -/

section DenseParts

/-- The first projection: one whole matrix product. -/
theorem lin_eq (x0 : (⟨S150000x2, .f32⟩ : BufTy).Contents (Elt Ideal)) (x2 : (⟨S2x32, .f32⟩ : BufTy).Contents (Elt Ideal)) :
    val_main_v0 (F := Ideal) x0 x2 = lin x0 x2 := by
  funext i
  rw [val_main_v0_apply]
  unfold lin
  refine Finset.sum_congr rfl fun k _ => ?_
  have el : lidx_main_v0 i k = ix2 (rowOf i) k := funext fun a => by
    match a with
    | ⟨0, _⟩ => rfl
    | ⟨1, _⟩ => rfl
  have er : ridx_main_v0 i k = ix2 k (colOf i) := funext fun a => by
    match a with
    | ⟨0, _⟩ => rfl
    | ⟨1, _⟩ => rfl
  rw [el, er]

/-- The second projection: the bias spread along the rows, the cut-off at zero, one whole matrix product. -/
theorem layer_eq (x0 : (⟨S150000x2, .f32⟩ : BufTy).Contents (Elt Ideal)) (x1 : (⟨S2x2400000, .i32⟩ : BufTy).Contents (Elt Ideal))
    (x2 : (⟨S2x32, .f32⟩ : BufTy).Contents (Elt Ideal)) (x3 : (⟨S32, .f32⟩ : BufTy).Contents (Elt Ideal)) (x4 : (⟨S32x32, .f32⟩ : BufTy).Contents (Elt Ideal)) :
    val_main_v48 (F := Ideal) x0 x1 x2 x3 x4 = layer (val_main_v43 x0 x1 x2) x3 x4 := by
  funext i
  rw [val_main_v48_apply]
  unfold layer Gcn.hidden
  refine Finset.sum_congr rfl fun k _ => ?_
  rw [val_main_v47_apply, val_main_v46_apply, val_main_v45_apply, val_main_v44_apply, val_main_call1_v0_apply, val_main_call1_cst_apply]
  have eb : idx_main_v44 (idx_main_v45 (lidx_main_v48 i k)) = ix1 k := funext fun a => by
    match a with
    | ⟨0, _⟩ => rfl
  have el : lidx_main_v48 i k = ix2 (rowOf i) k := funext fun a => by
    match a with
    | ⟨0, _⟩ => rfl
    | ⟨1, _⟩ => rfl
  have er : ridx_main_v48 i k = ix2 k (colOf i) := funext fun a => by
    match a with
    | ⟨0, _⟩ => rfl
    | ⟨1, _⟩ => rfl
  rw [eb, el, er]
  show max (val_main_v43 x0 x1 x2 (ix2 (rowOf i) k) + x3 (ix1 k)) (Ideal.ofBits .f32 0x00000000#32) * x4 (ix2 k (colOf i)) = _
  rw [Ideal.ofBits_zero_f32]

/-- The plain program's `1 / (1 + e^(−t))`, with its two ones as float patterns, is the logistic function of `t = S + β`. -/
theorem logistic_expand (S β : EReal) :
    FloatOps.hostDivf (F := Ideal) (φ := .f32) (Ideal.ofBits .f32 0x3F800000#32)
        (FloatOps.addf (F := Ideal) (φ := .f32) (Ideal.ofBits .f32 0x3F800000#32)
          (FloatOps.hostUnary (F := Ideal) (φ := .f32) .exp (FloatOps.hostNegf (F := Ideal) (φ := .f32) (FloatOps.addf (F := Ideal) (φ := .f32) S β))))
      = Ideal.logistic (S + β) := by
  rw [Ideal.ofBits_one_f32]
  rfl

/-- The read-out: the bias, the cut-off, the product with the output weights, the output bias, and 1 / (1 + e^(−t)). -/
theorem head_eq (x0 : (⟨S150000x2, .f32⟩ : BufTy).Contents (Elt Ideal)) (x1 : (⟨S2x2400000, .i32⟩ : BufTy).Contents (Elt Ideal))
    (x2 : (⟨S2x32, .f32⟩ : BufTy).Contents (Elt Ideal)) (x3 : (⟨S32, .f32⟩ : BufTy).Contents (Elt Ideal)) (x4 : (⟨S32x32, .f32⟩ : BufTy).Contents (Elt Ideal))
    (x5 : (⟨S32, .f32⟩ : BufTy).Contents (Elt Ideal)) (x6 : (⟨S32x1, .f32⟩ : BufTy).Contents (Elt Ideal)) (x7 : (⟨S1, .f32⟩ : BufTy).Contents (Elt Ideal)) :
    val_main_v105 (F := Ideal) x0 x1 x2 x3 x4 x5 x6 x7 = head (val_main_v91 x0 x1 x2 x3 x4) x5 x6 x7 := by
  funext i
  rw [val_main_v105_apply, val_main_v104_apply, val_main_cst_21_apply, val_main_v103_apply, val_main_v102_apply, val_main_cst_20_apply,
    val_main_v101_apply, val_main_v100_apply, val_main_v99_apply, val_main_v96_apply, val_main_v98_apply, val_main_v97_apply]
  unfold head Gcn.hidden
  have es : (∑ k : Fin 32, (val_main_v95 (F := Ideal) x0 x1 x2 x3 x4 x5) (lidx_main_v96 i k) * x6 (ridx_main_v96 i k))
      = ∑ k : Fin 32, max (val_main_v91 x0 x1 x2 x3 x4 (ix2 (rowOf i) k) + x5 (ix1 k)) 0 * x6 (ix2 k (colOf i)) := by
    refine Finset.sum_congr rfl fun k _ => ?_
    rw [val_main_v95_apply, val_main_v94_apply, val_main_v93_apply, val_main_v92_apply, val_main_call3_v0_apply, val_main_call3_cst_apply]
    have eb : idx_main_v92 (idx_main_v93 (lidx_main_v96 i k)) = ix1 k := funext fun a => by
      match a with
      | ⟨0, _⟩ => rfl
    have el : lidx_main_v96 i k = ix2 (rowOf i) k := funext fun a => by
      match a with
      | ⟨0, _⟩ => rfl
      | ⟨1, _⟩ => rfl
    have er : ridx_main_v96 i k = ix2 k (colOf i) := funext fun a => by
      match a with
      | ⟨0, _⟩ => rfl
      | ⟨1, _⟩ => rfl
    rw [eb, el, er]
    show max (val_main_v91 x0 x1 x2 x3 x4 (ix2 (rowOf i) k) + x5 (ix1 k)) (Ideal.ofBits .f32 0x00000000#32) * x6 (ix2 k (colOf i)) = _
    rw [Ideal.ofBits_zero_f32]
  have e7 : idx_main_v97 (idx_main_v98 i) = ix1 (colOf i) := funext fun a => by
    match a with
    | ⟨0, _⟩ => exact Fin.ext (by have h := (i 1).isLt; show 0 = (i 1).val; have h' : (i 1).val < 1 := h; omega)
  rw [es, e7, Ideal.ofBits_def]
  exact logistic_expand _ _

end DenseParts

/-- THE RESULT of the plain program as a term of its arguments. -/
theorem result (x0 : (⟨S150000x2, .f32⟩ : BufTy).Contents (Elt Ideal)) (x1 : (⟨S2x2400000, .i32⟩ : BufTy).Contents (Elt Ideal))
    (x2 : (⟨S2x32, .f32⟩ : BufTy).Contents (Elt Ideal)) (x3 : (⟨S32, .f32⟩ : BufTy).Contents (Elt Ideal)) (x4 : (⟨S32x32, .f32⟩ : BufTy).Contents (Elt Ideal))
    (x5 : (⟨S32, .f32⟩ : BufTy).Contents (Elt Ideal)) (x6 : (⟨S32x1, .f32⟩ : BufTy).Contents (Elt Ideal)) (x7 : (⟨S1, .f32⟩ : BufTy).Contents (Elt Ideal)) :
    val_main_v105 (F := Ideal) x0 x1 x2 x3 x4 x5 x6 x7
      = head (agg (layer (agg (lin x0 x2) (srcOf x1) (dstOf x1) (normOf (srcOf x1) (dstOf x1))) x3 x4)
          (srcOf x1) (dstOf x1) (normOf (srcOf x1) (dstOf x1))) x5 x6 x7 := by
  rw [head_eq, agg2_eq, layer_eq, agg1_eq, lin_eq]

end Cert.ReferenceIdeal.Whole

end
-- ==== Proof.lean ====
/-
  A two-layer graph convolution with a logistic read-out over a graph of 150000 nodes and 2.4 million edges (every node
  also its own neighbour), features 2 → 32 → 32 → 1: the tiled program against the plain one.

  Both programs compute, from the node features x, the edge array e, the weights W₁, W₂, Wₚ and the biases b₁, b₂, bₚ,

      out = head (agg (layer (agg (lin x W₁) s d n) b₁ W₂) s d n) b₂ Wₚ bₚ ,    s = srcOf e,  d = dstOf e,  n = normOf s d,

  where lin, layer, head are the dense stages of Proof/Spec.lean (a matrix product; bias, cut-off at zero and a matrix
  product; the same followed by the output bias and the logistic function) and agg, srcOf, dstOf, normOf the sparse
  stretches of Proof/Agg.lean (gather the rows by edge source, scale by the symmetric degree normalisation, add up by edge
  destination). The two programs apply the sparse stretches operation for operation alike; they differ in the dense stages:
  the tiled program runs each over 30 blocks of 5000 rows with its matrix operands passed through a narrower float
  format, the plain program runs each as one whole product. Over the extended reals the change of format is the
  identity, and a row of a product depends on that row of the left factor only, so each tiled stage leaves exactly the
  whole-array function in its result array (Proof/Stage0.lean, Stage1.lean, Stage2.lean), and the plain program's stages
  read at an entry are the same sums (Proof/RefValue.lean). Proof/KernelValue.lean follows the tiled program's buffers from
  the launch to the result; the claims below put the two results side by side. No finiteness of the inputs is used:
  the two sides are the same expression, term for term.
-/
import proofs.«119091_j25228637897420_1_alg».proof.Defs
import proofs.«119091_j25228637897420_1_alg».proof.Proof.Gen.Kernel
import proofs.«119091_j25228637897420_1_alg».proof.Proof.Gen.Kernel.Skeleton
import proofs.«119091_j25228637897420_1_alg».proof.Proof.Gen.Kernel.Launch
import proofs.«119091_j25228637897420_1_alg».proof.Proof.Gen.Kernel.Points
import proofs.«119091_j25228637897420_1_alg».proof.Proof.Gen.Kernel.Frame
import proofs.«119091_j25228637897420_1_alg».proof.Proof.Gen.KernelIdeal
import proofs.«119091_j25228637897420_1_alg».proof.Proof.Gen.KernelIdeal.Skeleton
import proofs.«119091_j25228637897420_1_alg».proof.Proof.Gen.KernelIdeal.Launch
import proofs.«119091_j25228637897420_1_alg».proof.Proof.Gen.KernelIdeal.Points
import proofs.«119091_j25228637897420_1_alg».proof.Proof.Gen.KernelIdeal.Frame
import proofs.«119091_j25228637897420_1_alg».proof.Proof.Gen.ReferenceIdeal
import proofs.«119091_j25228637897420_1_alg».proof.Proof.RefRun
import proofs.«119091_j25228637897420_1_alg».proof.Proof.RefRead
import proofs.«119091_j25228637897420_1_alg».proof.Proof.Gen.Pre_finite_inputs
import proofs.«119091_j25228637897420_1_alg».proof.Proof.KernelRun
import proofs.«119091_j25228637897420_1_alg».proof.Proof.KernelValue
import proofs.«119091_j25228637897420_1_alg».proof.Proof.RefValue
import Idealize.ShloMosaic.Adequacy
import Idealize.ShloMosaic.Init

noncomputable section

namespace Cert.Proof

open Idealize.ShloMosaic Idealize.ShloMosaic.TcCoe Idealize.SL.Sem

/-- The tiled program, word by word, runs to the end and leaves its arguments as launched. -/
theorem frame_kernel : Cert.frame_Kernel := fun m ρ _ => Cert.Kernel.Gen.frame m ρ

/-- The same program read over the extended reals runs to the end and leaves its arguments as launched. -/
theorem frame_kernelIdeal : Cert.frame_KernelIdeal := fun m ρ _ => Cert.KernelIdeal.Gen.frame m ρ

/-- The plain program runs to the end and leaves its arguments as launched: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Reading the tiled program over the extended reals rewrote no operation: nothing to preserve. -/
theorem preserves : Cert.preserves_Kernel_KernelIdeal := trivial

/-- From memories that agree on the eight arguments the two programs end with the same result array: both hold
    `head (agg (layer (agg (lin x W₁) s d n) b₁ W₂) s d n) b₂ Wₚ bₚ` of those arguments. -/
theorem algebraic : Cert.algebraic_KernelIdeal_ReferenceIdeal := by
  intro m ρ m' ρ' _ hagree
  refine ⟨fun c => Cert.KernelIdeal.Gen.W8 m ρ c (Proc.devRef .tc Cert.KernelIdeal.main_v61), Cert.KernelIdeal.GenP.run (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7⟩ := hagree c
  show Cert.ReferenceIdeal.ValueP.res_main_v105 m' c = Cert.KernelIdeal.Gen.W8 m ρ c (Proc.devRef .tc Cert.KernelIdeal.main_v61)
  rw [Cert.ReferenceIdeal.ReadP.val_main_v105_eq, Cert.ReferenceIdeal.Whole.result, Cert.KernelIdeal.Whole.result,
    h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
